-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v15 : IVec S2x1600000 1) (main_c_5 : IVec S_ 32) : IVec S_ 1 :=
  let main_v16 : IVec S2x1600000 32 := broadcastInDim S2x1600000 ![] bcast_S_S2x1600000 main_c_5
  let main_v17 : IVec S2x1600000 1 := cmpi .slt main_arg1 main_v16
  let main_v18 : IVec S2x1600000 1 := andi main_v15 main_v17
  let main_c_6 : IVec S_ 1 := constantI S_ 1 1#1
  let main_v19 : IVec S_ 1 := (fun x v => Host.reduce IntOp.andi x v reducesTo_S2x1600000_S_d0_1 h_S_) main_v18 main_c_6
  let main_v20 : IVec S_ 1 := andi main_v13 main_v19
  main_v20

def fn {F : FTy → Type} [FloatOps F] (main_arg0 : FVec F S100000x256 .f32) (main_arg1 : IVec S2x1600000 32) (main_arg2 : FVec F S256x128 .f32) (main_arg3 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x1600000 32 := broadcastInDim S2x1600000 ![] bcast_S_S2x1600000 main_c_4
  let main_v15 : IVec S2x1600000 1 := cmpi .sge main_arg1 main_v14
  let main_c_5 : IVec S_ 32 := constantI S_ 32 100000#32
  fn_part1 (F := F) main_arg1 main_v13 main_v15 main_c_5
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 58
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S256x128, .bf16⟩
  | .hbm, ⟨26, _⟩ => ⟨S100000x1, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x128, .f32⟩
  | .hbm, ⟨47, _⟩ => ⟨S1600000x128, .i1⟩
  | .hbm, ⟨48, _⟩ => ⟨S_, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S1x128, .f32⟩
  | .hbm, ⟨57, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v17 : Ref sig .tc := ⟨.hbm, 50, rfl⟩
abbrev main_cst_4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The two dense stages of the graph convolution, each as ONE function of whole arrays, index by index, on the
  extended reals.

  Stage A (the first launch): row `i`, channel `l` of `g` is the row of `x @ W` scaled by the node's
  normalisation, `g i l = (∑ k, x i k * w k l) * d i`, the normalisation kept as a column `[n, 1]`.

  Stage B (the second launch): `out i l = d i * (s i l + g i l) + b l` — the aggregated neighbour sum `s` plus the
  node's own row `g` (its self loop), scaled again by the node's normalisation, plus the bias kept as a row `[1, c]`.
-/
import Idealize.ShloMosaic.PureOps.Ideal
import Idealize.ShloMosaic.Lib.ValueIdx

noncomputable section

open scoped BigOperators

namespace Cert.Gcn

open Idealize.ShloMosaic Idealize.ShloMosaic.ValueIdx

/-- Stage A: the scaled linear transform. -/
def G0 (x : (⟨2, ![100000, 256]⟩ : Shape).Idx → EReal) (w : (⟨2, ![256, 128]⟩ : Shape).Idx → EReal)
    (d : (⟨2, ![100000, 1]⟩ : Shape).Idx → EReal) : (⟨2, ![100000, 128]⟩ : Shape).Idx → EReal :=
  fun j => (∑ k : Fin 256, x (ix2 (j 0) k) * w (ix2 k (j 1))) * d (ix2 (j 0) (0 : Fin 1))

/-- Stage B: self loop added, normalised, biased. -/
def G1 (s g : (⟨2, ![100000, 128]⟩ : Shape).Idx → EReal) (d : (⟨2, ![100000, 1]⟩ : Shape).Idx → EReal)
    (b : (⟨2, ![1, 128]⟩ : Shape).Idx → EReal) : (⟨2, ![100000, 128]⟩ : Shape).Idx → EReal :=
  fun j => d (ix2 (j 0) (0 : Fin 1)) * (s j + g j) + b (ix2 (0 : Fin 1) (j 1))

end Cert.Gcn

end
-- ==== Proof.KDefs.lean ====
/-
  The kernel program's host code as named functions on the extended reals.

  From the edge-index array `ei`: the sources `rowOf ei` and targets `colOf ei` of the edges (rows 0 and 1 of `ei`);
  the degree `degOf ei i = (0 + ∑_{e : col e = i} 1) + 1` (a segment sum of ones over the targets, plus the self loop);
  the normalisation `dinvOf ei = if deg > 0 then 1/√deg else 0`; the rows of a table gathered at the sources
  (`takeOf`: a negative source is wrapped by the table's height, and a source still outside the table reads a fill
  value) and summed by target (`aggOf`). `result` composes them with the two dense stages `Cert.Gcn.G0`, `Cert.Gcn.G1`.
-/
import proofs.«421425_j4363686773057_3_alg».proof.KernelIdeal
import proofs.«421425_j4363686773057_3_alg».proof.Proof.Gen.KernelIdeal
import proofs.«421425_j4363686773057_3_alg».proof.Proof.Spec
import Idealize.ShloMosaic.PureOps.Ideal

noncomputable section

namespace Cert.KernelIdeal.HostValue

open Cert.KernelIdeal Cert.KernelIdeal.Facts₀ Cert.KernelIdeal.Facts
open Idealize.ShloMosaic

/-- The edges' source nodes: row 0 of the edge-index array. -/
def rowOf (ei : IVec S2x1600000 32) : IVec S1600000 32 :=
  shapeCast S1600000 (extractStridedSlice S1x1600000 ![0, 0] ei slices_S2x1600000_S1x1600000_0_0) shapeCasts_S1x1600000_S1600000

/-- The edges' target nodes: row 1 of the edge-index array. -/
def colOf (ei : IVec S2x1600000 32) : IVec S1600000 32 :=
  shapeCast S1600000 (extractStridedSlice S1x1600000 ![1, 0] ei slices_S2x1600000_S1x1600000_1_0) shapeCasts_S1x1600000_S1600000

/-- The degrees: ones summed by target, plus one for the self loop. -/
def degOf (ei : IVec S2x1600000 32) : FVec Ideal S100000 .f32 :=
  addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (colOf ei))
      (broadcastInDim S1600000 ![] bcast_S_S1600000 (constant S_ .f32 0x3F800000#32)))
    (broadcastInDim S100000 ![] bcast_S_S100000 (constant S_ .f32 0x3F800000#32))

/-- The normalisation: the reciprocal square root of a positive degree, zero otherwise. -/
def dinvOf (ei : IVec S2x1600000 32) : FVec Ideal S100000 .f32 :=
  select (cmpf .ogt (degOf ei) (broadcastInDim S100000 ![] bcast_S_S100000 (constant S_ .f32 0x00000000#32)))
    (Host.rsqrt (degOf ei))
    (broadcastInDim S100000 ![] bcast_S_S100000 (id (constant S_ .f32 0x00000000#32)))

/-- The start indices of the row gather: a negative source wrapped by the table's height, as a column. -/
def takeIdx (row : IVec S1600000 32) : IVec S1600000x1 32 :=
  broadcastInDim S1600000x1 ![0] bcast_S1600000_S1600000x1_0
    (select (cmpi .slt row (broadcastInDim S1600000 ![] bcast_S_S1600000 (constantI S_ 32 0#32)))
      (addi row (broadcastInDim S1600000 ![] bcast_S_S1600000 (constantI S_ 32 100000#32))) row)

/-- The rows of `g` at the edges' sources; a source outside the table reads the fill value. -/
def takeOf (g : FVec Ideal S100000x128 .f32) (row : IVec S1600000 32) : FVec Ideal S1600000x128 .f32 :=
  select
    (broadcastInDim S1600000x128 ![0] bcast_S1600000_S1600000x128_0
      (Host.reduce IntOp.andi
        (andi (cmpi .sge (takeIdx row) (broadcastInDim S1600000x1 ![] bcast_S_S1600000x1 (constantI S_ 32 0#32)))
          (cmpi .sle (takeIdx row)
            (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 g (takeIdx row))
    (broadcastInDim S1600000x128 ![] bcast_S_S1600000x128 (constant S_ .f32 0x7FC00000#32))

/-- The neighbour sums: the gathered rows summed by target. -/
def aggOf (g : FVec Ideal S100000x128 .f32) (row col : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 col)
    (takeOf g row)

/-- The kernel program's result, as one term of the launch contents of its arguments. -/
def result (x : FVec Ideal S100000x256 .f32) (ei : IVec S2x1600000 32) (w : FVec Ideal S256x128 .f32) (b : FVec Ideal S128 .f32) :
    FVec Ideal S100000x128 .f32 :=
  let g := Cert.Gcn.G0 x (truncf .bf16 w bitsLt_bf16_f32) (shapeCast S100000x1 (dinvOf ei) shapeCasts_S100000_S100000x1)
  Cert.Gcn.G1 (aggOf g (rowOf ei) (colOf ei)) g (shapeCast S100000x1 (dinvOf ei) shapeCasts_S100000_S100000x1)
    (shapeCast S1x128 b shapeCasts_S128_S1x128)

end Cert.KernelIdeal.HostValue

end
-- ==== Proof.KStretch.lean ====
/-
  The kernel program's host code, read one stretch of host operations at a time, at any float family.

  Each lemma states what one buffer holds at a segment boundary of the run in terms of the buffers at the boundary
  before it. The float stage functions (`degF`, `dinvF`, `takeF`, `aggF`) are the functions of `KDefs.lean` with the float
  family left abstract: there a segment sum or a gather is an unopened operation of the family, so two spellings
  of one chain are compared operation by operation and never through the sums they denote at the extended reals.
-/
import proofs.«421425_j4363686773057_3_alg».proof.Proof.Gen.KernelIdeal.Frame
import proofs.«421425_j4363686773057_3_alg».proof.Proof.KDefs
import Idealize.ShloMosaic.PureOps.Ideal
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-- The degrees, at any float family. -/
def degF (ei : IVec S2x1600000 32) : FVec F S100000 .f32 :=
  addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (colOf ei))
      (broadcastInDim S1600000 ![] bcast_S_S1600000 (constant S_ .f32 0x3F800000#32)))
    (broadcastInDim S100000 ![] bcast_S_S100000 (constant S_ .f32 0x3F800000#32))

/-- The normalisation, at any float family. -/
def dinvF (ei : IVec S2x1600000 32) : FVec F S100000 .f32 :=
  select (cmpf .ogt (degF (F := F) ei) (broadcastInDim S100000 ![] bcast_S_S100000 (constant S_ .f32 0x00000000#32)))
    (Host.rsqrt (degF (F := F) ei))
    (broadcastInDim S100000 ![] bcast_S_S100000 (id (constant S_ .f32 0x00000000#32)))

/-- The gathered rows, at any float family. -/
def takeF (g : FVec F S100000x128 .f32) (row : IVec S1600000 32) : FVec F S1600000x128 .f32 :=
  select
    (broadcastInDim S1600000x128 ![0] bcast_S1600000_S1600000x128_0
      (Host.reduce IntOp.andi
        (andi (cmpi .sge (takeIdx row) (broadcastInDim S1600000x1 ![] bcast_S_S1600000x1 (constantI S_ 32 0#32)))
          (cmpi .sle (takeIdx row)
            (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x128_S1600000x1_S1600000x128_1_0_n_n_0_1_1128 g (takeIdx row))
    (broadcastInDim S1600000x128 ![] bcast_S_S1600000x128 (constant S_ .f32 0x7FC00000#32))

/-- Rows summed by target, at any float family. -/
def aggF (upd : FVec F S1600000x128 .f32) (col : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 col)
    upd

/-- At the extended reals these are the functions of `KDefs.lean`. -/
theorem degF_ideal (ei : IVec S2x1600000 32) : degF (F := Ideal) ei = degOf ei := rfl
theorem dinvF_ideal (ei : IVec S2x1600000 32) : dinvF (F := Ideal) ei = dinvOf ei := rfl
theorem aggF_takeF_ideal (g : FVec Ideal S100000x128 .f32) (row col : IVec S1600000 32) :
    aggF (F := Ideal) (takeF (F := Ideal) g row) col = aggOf g row col := rfl

variable (m : (ℓ : Loc nD τ sig) → Buf (Elt F) ℓ) (ρ : Dev nD → PrngReg)

/-- At launch a buffer holds its launch contents. -/
theorem W0_eq (c : Dev nD) (b : Ref sig .tc) : W0 m ρ c (Proc.devRef .tc b) = m ((c : Thread nD τ).loc b) := rfl

/-! ## After the first stretch of host operations -/

theorem W1_v1 (c : Dev nD) : W1 m ρ c (Proc.devRef .tc main_v1) = rowOf (W0 m ρ c (Proc.devRef .tc main_arg1)) := by
  show StableHlo.after hostOps0 (W0 m ρ c) (Proc.devRef .tc main_v1) = _
  generalize W0 m ρ c = V
  after_results_simp <;> (try simp only [TRef.ofBuf, TRef.toBuf, cast_eq]) <;> rfl
theorem W1_v3 (c : Dev nD) : W1 m ρ c (Proc.devRef .tc main_v3) = colOf (W0 m ρ c (Proc.devRef .tc main_arg1)) := by
  show StableHlo.after hostOps0 (W0 m ρ c) (Proc.devRef .tc main_v3) = _
  generalize W0 m ρ c = V
  after_results_simp <;> (try simp only [TRef.ofBuf, TRef.toBuf, cast_eq]) <;> rfl
theorem W1_v9 (c : Dev nD) : W1 m ρ c (Proc.devRef .tc main_v9) = degF (F := F) (W0 m ρ c (Proc.devRef .tc main_arg1)) := by
  show StableHlo.after hostOps0 (W0 m ρ c) (Proc.devRef .tc main_v9) = _
  generalize W0 m ρ c = V
  after_results_simp <;> (try simp only [TRef.ofBuf, TRef.toBuf, cast_eq]) <;> rfl
theorem W1_v11 (c : Dev nD) : W1 m ρ c (Proc.devRef .tc main_v11) = cmpf .ogt (degF (F := F) (W0 m ρ c (Proc.devRef .tc main_arg1))) (broadcastInDim S100000 ![] bcast_S_S100000 (constant S_ .f32 0x00000000#32)) := by
  show StableHlo.after hostOps0 (W0 m ρ c) (Proc.devRef .tc main_v11) = _
  generalize W0 m ρ c = V
  after_results_simp <;> (try simp only [TRef.ofBuf, TRef.toBuf, cast_eq]) <;> rfl
theorem W1_v12 (c : Dev nD) : W1 m ρ c (Proc.devRef .tc main_v12) = Host.rsqrt (degF (F := F) (W0 m ρ c (Proc.devRef .tc main_arg1))) := by
  show StableHlo.after hostOps0 (W0 m ρ c) (Proc.devRef .tc main_v12) = _
  generalize W0 m ρ c = V
  after_results_simp <;> (try simp only [TRef.ofBuf, TRef.toBuf, cast_eq]) <;> rfl
theorem W1_cst3 (c : Dev nD) : W1 m ρ c (Proc.devRef .tc main_cst_3) = (constant S_ .f32 0x00000000#32 : FVec F S_ .f32) := by
  show StableHlo.after hostOps0 (W0 m ρ c) (Proc.devRef .tc main_cst_3) = _
  generalize W0 m ρ c = V
  after_results_simp <;> (try simp only [TRef.ofBuf, TRef.toBuf, cast_eq]) <;> rfl
theorem W1_arg0 (c : Dev nD) : W1 m ρ c (Proc.devRef .tc main_arg0) = W0 m ρ c (Proc.devRef .tc main_arg0) := by
  show StableHlo.after hostOps0 (W0 m ρ c) (Proc.devRef .tc main_arg0) = _
  generalize W0 m ρ c = V
  after_results_simp
theorem W1_arg2 (c : Dev nD) : W1 m ρ c (Proc.devRef .tc main_arg2) = W0 m ρ c (Proc.devRef .tc main_arg2) := by
  show StableHlo.after hostOps0 (W0 m ρ c) (Proc.devRef .tc main_arg2) = _
  generalize W0 m ρ c = V
  after_results_simp
theorem W1_arg3 (c : Dev nD) : W1 m ρ c (Proc.devRef .tc main_arg3) = W0 m ρ c (Proc.devRef .tc main_arg3) := by
  show StableHlo.after hostOps0 (W0 m ρ c) (Proc.devRef .tc main_arg3) = _
  generalize W0 m ρ c = V
  after_results_simp

/-! ## After the normalisation's select -/

theorem W2_v13 (c : Dev nD) : W2 m ρ c (Proc.devRef .tc main_v13) = select (W1 m ρ c (Proc.devRef .tc main_v11)) (W1 m ρ c (Proc.devRef .tc main_v12) : FVec F S100000 .f32) (broadcastInDim S100000 ![] bcast_S_S100000 (id (W1 m ρ c (Proc.devRef .tc main_cst_3) : FVec F S_ .f32))) := by
  show StableHlo.after hostOps0_1 (W1 m ρ c) (Proc.devRef .tc main_v13) = _
  generalize W1 m ρ c = V
  after_results_simp <;> (try simp only [TRef.ofBuf, TRef.toBuf, cast_eq]) <;> rfl
theorem W2_v1 (c : Dev nD) : W2 m ρ c (Proc.devRef .tc main_v1) = W1 m ρ c (Proc.devRef .tc main_v1) := by
  show StableHlo.after hostOps0_1 (W1 m ρ c) (Proc.devRef .tc main_v1) = _
  generalize W1 m ρ c = V
  after_results_simp
theorem W2_v3 (c : Dev nD) : W2 m ρ c (Proc.devRef .tc main_v3) = W1 m ρ c (Proc.devRef .tc main_v3) := by
  show StableHlo.after hostOps0_1 (W1 m ρ c) (Proc.devRef .tc main_v3) = _
  generalize W1 m ρ c = V
  after_results_simp
theorem W2_arg0 (c : Dev nD) : W2 m ρ c (Proc.devRef .tc main_arg0) = W1 m ρ c (Proc.devRef .tc main_arg0) := by
  show StableHlo.after hostOps0_1 (W1 m ρ c) (Proc.devRef .tc main_arg0) = _
  generalize W1 m ρ c = V
  after_results_simp
theorem W2_arg2 (c : Dev nD) : W2 m ρ c (Proc.devRef .tc main_arg2) = W1 m ρ c (Proc.devRef .tc main_arg2) := by
  show StableHlo.after hostOps0_1 (W1 m ρ c) (Proc.devRef .tc main_arg2) = _
  generalize W1 m ρ c = V
  after_results_simp
theorem W2_arg3 (c : Dev nD) : W2 m ρ c (Proc.devRef .tc main_arg3) = W1 m ρ c (Proc.devRef .tc main_arg3) := by
  show StableHlo.after hostOps0_1 (W1 m ρ c) (Proc.devRef .tc main_arg3) = _
  generalize W1 m ρ c = V
  after_results_simp

/-! ## At the first launch's entry -/

theorem W3_v14 (c : Dev nD) : W3 m ρ c (Proc.devRef .tc main_v14) = (truncf .bf16 (W2 m ρ c (Proc.devRef .tc main_arg2) : FVec F S256x128 .f32) bitsLt_bf16_f32 : FVec F S256x128 .bf16) := by
  show StableHlo.after hostOps0_2 (W2 m ρ c) (Proc.devRef .tc main_v14) = _
  generalize W2 m ρ c = V
  after_results_simp <;> (try simp only [TRef.ofBuf, TRef.toBuf, cast_eq]) <;> rfl
theorem W3_v15 (c : Dev nD) : W3 m ρ c (Proc.devRef .tc main_v15) = shapeCast S100000x1 (W2 m ρ c (Proc.devRef .tc main_v13) : FVec F S100000 .f32) shapeCasts_S100000_S100000x1 := by
  show StableHlo.after hostOps0_2 (W2 m ρ c) (Proc.devRef .tc main_v15) = _
  generalize W2 m ρ c = V
  after_results_simp <;> (try simp only [TRef.ofBuf, TRef.toBuf, cast_eq]) <;> rfl
theorem W3_v1 (c : Dev nD) : W3 m ρ c (Proc.devRef .tc main_v1) = W2 m ρ c (Proc.devRef .tc main_v1) := by
  show StableHlo.after hostOps0_2 (W2 m ρ c) (Proc.devRef .tc main_v1) = _
  generalize W2 m ρ c = V
  after_results_simp
theorem W3_v3 (c : Dev nD) : W3 m ρ c (Proc.devRef .tc main_v3) = W2 m ρ c (Proc.devRef .tc main_v3) := by
  show StableHlo.after hostOps0_2 (W2 m ρ c) (Proc.devRef .tc main_v3) = _
  generalize W2 m ρ c = V
  after_results_simp
theorem W3_v13 (c : Dev nD) : W3 m ρ c (Proc.devRef .tc main_v13) = W2 m ρ c (Proc.devRef .tc main_v13) := by
  show StableHlo.after hostOps0_2 (W2 m ρ c) (Proc.devRef .tc main_v13) = _
  generalize W2 m ρ c = V
  after_results_simp
theorem W3_arg0 (c : Dev nD) : W3 m ρ c (Proc.devRef .tc main_arg0) = W2 m ρ c (Proc.devRef .tc main_arg0) := by
  show StableHlo.after hostOps0_2 (W2 m ρ c) (Proc.devRef .tc main_arg0) = _
  generalize W2 m ρ c = V
  after_results_simp
theorem W3_arg3 (c : Dev nD) : W3 m ρ c (Proc.devRef .tc main_arg3) = W2 m ρ c (Proc.devRef .tc main_arg3) := by
  show StableHlo.after hostOps0_2 (W2 m ρ c) (Proc.devRef .tc main_arg3) = _
  generalize W2 m ρ c = V
  after_results_simp

/-! ## The gather stretch, cut in three -/

/-- The in-bounds test of a column of start indices: `0 ≤ idx ≤ 99999`, and-reduced over the column's unit axis. -/
def maskOf (idx : IVec S1600000x1 32) : IVec S1600000 1 :=
  Host.reduce IntOp.andi
    (andi (cmpi .sge idx (broadcastInDim S1600000x1 ![] bcast_S_S1600000x1 (constantI S_ 32 0#32)))
      (cmpi .sle idx
        (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The gather stretch's first eight operations: the start indices. -/
abbrev opsA : List (HloOp τ sig (Elt F)) := (hostOps1 (F := F)).take 8
/-- Its next ten: the in-bounds test. -/
abbrev opsB : List (HloOp τ sig (Elt F)) := ((hostOps1 (F := F)).drop 8).take 10
/-- Its last five: the gather and the select against the fill value. -/
abbrev opsC : List (HloOp τ sig (Elt F)) := ((hostOps1 (F := F)).drop 8).drop 10

theorem hostOps1_cut : (hostOps1 : List (HloOp τ sig (Elt F))) = opsA ++ (opsB ++ opsC) := by
  show _ = List.take 8 hostOps1 ++ (List.take 10 (List.drop 8 hostOps1) ++ List.drop 10 (List.drop 8 hostOps1))
  rw [List.take_append_drop, List.take_append_drop]

theorem opsA_v5 (V : Valuation τ sig (Elt F)) :
    StableHlo.after (opsA (F := F)) V (Proc.devRef .tc main_call1_v5) = takeIdx (V (Proc.devRef .tc main_v1)) := by
  simp only [opsA, hostOps1, List.take_succ_cons, List.take_zero]
  after_results_simp <;> (try simp only [TRef.ofBuf, TRef.toBuf, cast_eq]) <;> rfl

theorem opsA_v16 (V : Valuation τ sig (Elt F)) :
    StableHlo.after (opsA (F := F)) V (Proc.devRef .tc main_v16) = V (Proc.devRef .tc main_v16) := by
  simp only [opsA, hostOps1, List.take_succ_cons, List.take_zero]
  after_results_simp

theorem opsB_v12 (V : Valuation τ sig (Elt F)) :
    StableHlo.after (opsB (F := F)) V (Proc.devRef .tc main_call1_v12) = maskOf (V (Proc.devRef .tc main_call1_v5)) := by
  simp only [opsB, hostOps1, List.take_succ_cons, List.take_zero, List.drop_succ_cons, List.drop_zero]
  after_results_simp <;> (try simp only [TRef.ofBuf, TRef.toBuf, cast_eq]) <;> rfl

theorem opsB_v5 (V : Valuation τ sig (Elt F)) :
    StableHlo.after (opsB (F := F)) V (Proc.devRef .tc main_call1_v5) = V (Proc.devRef .tc main_call1_v5) := by
  simp only [opsB, hostOps1, List.take_succ_cons, List.take_zero, List.drop_succ_cons, List.drop_zero]
  after_results_simp

theorem opsB_v16 (V : Valuation τ sig (Elt F)) :
    StableHlo.after (opsB (F := F)) V (Proc.devRef .tc main_v16) = V (Proc.devRef .tc main_v16) := by
  simp only [opsB, hostOps1, List.take_succ_cons, List.take_zero, List.drop_succ_cons, List.drop_zero]
  after_results_simp

theorem opsC_v17 (V : Valuation τ sig (Elt F)) :
    StableHlo.after (opsC (F := F)) V (Proc.devRef .tc main_v17)
      = select (broadcastInDim S1600000x128 ![0] bcast_S1600000_S1600000x128_0 (V (Proc.devRef .tc main_call1_v12) : IVec S1600000 1))
          (Host.gather gather_S100000x128_S1600000x1_S1600000x128_1_0_n_n_0_1_1128 (V (Proc.devRef .tc main_v16) : FVec F S100000x128 .f32)
            (V (Proc.devRef .tc main_call1_v5) : IVec S1600000x1 32))
          (broadcastInDim S1600000x128 ![] bcast_S_S1600000x128 (constant S_ .f32 0x7FC00000#32)) := by
  simp only [opsC, hostOps1, List.drop_succ_cons, List.drop_zero]
  after_results_simp <;> (try simp only [TRef.ofBuf, TRef.toBuf, cast_eq]) <;> rfl

/-- The gathered rows are `takeF` of the table and the sources. -/
theorem takeF_eq (g : FVec F S100000x128 .f32) (row : IVec S1600000 32) :
    takeF (F := F) g row
      = select (broadcastInDim S1600000x128 ![0] bcast_S1600000_S1600000x128_0 (maskOf (takeIdx row)))
          (Host.gather gather_S100000x128_S1600000x1_S1600000x128_1_0_n_n_0_1_1128 g (takeIdx row))
          (broadcastInDim S1600000x128 ![] bcast_S_S1600000x128 (constant S_ .f32 0x7FC00000#32)) := rfl

theorem W5_v17 (c : Dev nD) :
    W5 m ρ c (Proc.devRef .tc main_v17) = takeF (F := F) (W4 m ρ c (Proc.devRef .tc main_v16)) (W4 m ρ c (Proc.devRef .tc main_v1)) := by
  show StableHlo.after hostOps1 (W4 m ρ c) (Proc.devRef .tc main_v17) = _
  rw [hostOps1_cut, StableHlo.after_append, StableHlo.after_append, opsC_v17, opsB_v12, opsB_v16, opsB_v5, opsA_v5, opsA_v16, takeF_eq]

/-! ## After the gather: what the stretch leaves alone -/

theorem W5_v16 (c : Dev nD) : W5 m ρ c (Proc.devRef .tc main_v16) = W4 m ρ c (Proc.devRef .tc main_v16) := by
  show StableHlo.after hostOps1 (W4 m ρ c) (Proc.devRef .tc main_v16) = _
  generalize W4 m ρ c = V
  after_results_simp
theorem W5_v3 (c : Dev nD) : W5 m ρ c (Proc.devRef .tc main_v3) = W4 m ρ c (Proc.devRef .tc main_v3) := by
  show StableHlo.after hostOps1 (W4 m ρ c) (Proc.devRef .tc main_v3) = _
  generalize W4 m ρ c = V
  after_results_simp
theorem W5_v13 (c : Dev nD) : W5 m ρ c (Proc.devRef .tc main_v13) = W4 m ρ c (Proc.devRef .tc main_v13) := by
  show StableHlo.after hostOps1 (W4 m ρ c) (Proc.devRef .tc main_v13) = _
  generalize W4 m ρ c = V
  after_results_simp
theorem W5_arg3 (c : Dev nD) : W5 m ρ c (Proc.devRef .tc main_arg3) = W4 m ρ c (Proc.devRef .tc main_arg3) := by
  show StableHlo.after hostOps1 (W4 m ρ c) (Proc.devRef .tc main_arg3) = _
  generalize W4 m ρ c = V
  after_results_simp

/-! ## At the second launch's entry -/

theorem W6_v20 (c : Dev nD) : W6 m ρ c (Proc.devRef .tc main_v20) = aggF (F := F) (W5 m ρ c (Proc.devRef .tc main_v17)) (W5 m ρ c (Proc.devRef .tc main_v3)) := by
  show StableHlo.after hostOps1_1 (W5 m ρ c) (Proc.devRef .tc main_v20) = _
  generalize W5 m ρ c = V
  after_results_simp <;> (try simp only [TRef.ofBuf, TRef.toBuf, cast_eq]) <;> rfl
theorem W6_v21 (c : Dev nD) : W6 m ρ c (Proc.devRef .tc main_v21) = shapeCast S100000x1 (W5 m ρ c (Proc.devRef .tc main_v13) : FVec F S100000 .f32) shapeCasts_S100000_S100000x1 := by
  show StableHlo.after hostOps1_1 (W5 m ρ c) (Proc.devRef .tc main_v21) = _
  generalize W5 m ρ c = V
  after_results_simp <;> (try simp only [TRef.ofBuf, TRef.toBuf, cast_eq]) <;> rfl
theorem W6_v22 (c : Dev nD) : W6 m ρ c (Proc.devRef .tc main_v22) = shapeCast S1x128 (W5 m ρ c (Proc.devRef .tc main_arg3) : FVec F S128 .f32) shapeCasts_S128_S1x128 := by
  show StableHlo.after hostOps1_1 (W5 m ρ c) (Proc.devRef .tc main_v22) = _
  generalize W5 m ρ c = V
  after_results_simp <;> (try simp only [TRef.ofBuf, TRef.toBuf, cast_eq]) <;> rfl
theorem W6_v16 (c : Dev nD) : W6 m ρ c (Proc.devRef .tc main_v16) = W5 m ρ c (Proc.devRef .tc main_v16) := by
  show StableHlo.after hostOps1_1 (W5 m ρ c) (Proc.devRef .tc main_v16) = _
  generalize W5 m ρ c = V
  after_results_simp

end Cert.KernelIdeal.HostValue

end
-- ==== Proof.Region0.lean ====
/-
  The first launch, read as a value: after its twenty grid points the output array holds, at every index, the
  scaled linear transform `Cert.Gcn.G0` of the three arrays the launch finds at entry (node features, weights,
  the normalisation column).
-/
import proofs.«421425_j4363686773057_3_alg».proof.Proof.Gen.KernelIdeal.Frame
import proofs.«421425_j4363686773057_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The block product at an index -/

/-- Row axis of the left operand: an output row reads the same row of the left block. -/
theorem lhs_dot_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Column axis of the left operand: the contraction position. -/
theorem lhs_dot_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- Row axis of the right operand: the contraction position. -/
theorem rhs_dot_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Column axis of the right operand: an output column reads the same column of the right block. -/
theorem rhs_dot_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product into a zero accumulator, at row `p` and column `q`: the sum over the 256 contraction positions of
    the left block's row `p` times the right block's column `q`. -/
theorem matmul_zero_apply (a : FVec Ideal S5000x256 .bf16) (b : FVec Ideal S256x128 .bf16) (p : Fin 5000) (q : Fin 128) :
    matmul dot_S5000x256_S256x128_S5000x128_1_0_0_1_n_n none a b (constant (F := Ideal) S5000x128 .f32 0x00000000#32) (ix2 p q)
      = ∑ k : Fin 256, a (ix2 p k) * b (ix2 k q) := by
  show FloatOps.matmul dot_S5000x256_S256x128_S5000x128_1_0_0_1_n_n none a b (constant (F := Ideal) S5000x128 .f32 0x00000000#32) (ix2 p q) = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-! ## A column broadcast along the lanes -/

/-- A column `[a, 1]` broadcast to `[a, b]` reads, at row `p` and any lane, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (l : Fin b) : broadcastTo ⟨2, ![a, b]⟩ v h (ix2 p l) = v (ix2 p (0 : Fin 1)) := by
  refine broadcastTo_apply v h (ix2 p l) (ix2 p (0 : Fin 1)) fun ax => ?_
  match ax with
  | ⟨0, _⟩ =>
    show p.val = if a = 1 then 0 else p.val
    split
    · have := p.isLt; omega
    · rfl
  | ⟨1, _⟩ => rfl

/-! ## The body's value at an index -/

/-- What the body stores, at row `p` and lane `q` of its block: the row of the feature block times the weight column,
    summed over the 256 channels, then scaled by the row's entry of the normalisation column. The rounding of the features
    to the narrower format is the identity on the extended reals. -/
theorem pay_apply (x0 : Vec Ideal S5000x256 .f32) (x1 : Vec Ideal S256x128 .bf16) (x2 : Vec Ideal S5000x1 .f32) (p : Fin 5000) (q : Fin 128) :
    k0_pay1 x0 x1 x2 (ix2 p q) = (∑ k : Fin 256, x0 (ix2 p k) * x1 (ix2 k q)) * x2 (ix2 p (0 : Fin 1)) := by
  unfold k0_pay1
  rw [mulf_apply, matmul_zero_apply, shapeCast_self, shapeCast_self, broadcastTo_a1_ab_apply]
  rfl

/-! ## One block of the output as the whole-array function -/

/-- The value the body stores at row `p`, lane `q` of block `r` is the whole-array function at row `5000 r + p`, lane `q`,
    as soon as the three loaded blocks are what the arrays hold there: the feature block rows `5000 r …` of the features,
    the weight block the whole weight matrix, the normalisation block rows `5000 r …` of the normalisation column. -/
theorem block_value (X : S100000x256.Idx → EReal) (W : S256x128.Idx → EReal) (D : S100000x1.Idx → EReal)
    (x0 : Vec Ideal S5000x256 .f32) (x1 : Vec Ideal S256x128 .bf16) (x2 : Vec Ideal S5000x1 .f32) (r : ℕ)
    (hx0 : ∀ (y : S5000x256.Idx) (z : S100000x256.Idx), (z 0).val = r * 5000 + (y 0).val → (z 1).val = (y 1).val → x0 y = X z)
    (hx1 : ∀ y : S256x128.Idx, x1 y = W y)
    (hx2 : ∀ (y : S5000x1.Idx) (z : S100000x1.Idx), (z 0).val = r * 5000 + (y 0).val → (z 1).val = (y 1).val → x2 y = D z)
    (j : S5000x128.Idx) (i : S100000x128.Idx) (hi0 : (i 0).val = r * 5000 + (j 0).val) (hi1 : (i 1).val = (j 1).val) :
    k0_pay1 x0 x1 x2 j = Cert.Gcn.G0 X W D i := by
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  obtain rfl : Q = q := Fin.ext hi1
  rw [pay_apply]
  show _ = (∑ k : Fin 256, X (ix2 P k) * W (ix2 k Q)) * D (ix2 P (0 : Fin 1))
  rw [hx2 (ix2 p (0 : Fin 1)) (ix2 P (0 : Fin 1)) hi0 rfl]
  refine congrArg (· * D (ix2 P (0 : Fin 1))) (Finset.sum_congr rfl fun k _ => ?_)
  rw [hx0 (ix2 p k) (ix2 P k) hi0 rfl, hx1]

/-! ## The windows' blocks, read off their arrays -/

theorem origin_eq : (![0, 0] : Fin 2 → Nat) = fun _ => 0 := funext fun a => by fin_cases a <;> rfl

/-- The index maps, decided over the twenty grid points: at point `t` the feature, normalisation and output windows are
    at block row `t`, block column `0`; the weight window stays at block `(0, 0)`. -/
theorem block_index : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t … 5000 t + 4999` of the feature array. -/
theorem feat_block (c : Dev nD) (t : Fin cfg0.N) (y : S5000x256.Idx) (z : S100000x256.Idx)
    (h0 : (z 0).val = t.val * 5000 + (y 0).val) (h1 : (z 1).val = (y 1).val) :
    (iblk0 V c 0 t : Vec Ideal S5000x256 .f32) y = (V c main_arg0 : S100000x256.Idx → EReal) z := by
  obtain ⟨-, -, e0, e1, -⟩ := block_index t
  unfold iblk0
  rw [View.read_apply]
  show V c main_arg0 (((cfg0.win 0).blk t).view.emb y) = V c main_arg0 z
  refine congrArg (V c main_arg0) (funext fun a => Fin.ext ?_)
  match a with
  | ⟨0, _⟩ => show win0_0.index t (0 : Fin 2) * 5000 + 1 * (y 0).val = (z 0).val; omega
  | ⟨1, _⟩ => show win0_0.index t (1 : Fin 2) * 256 + 1 * (y 1).val = (z 1).val; omega

/-- The weight window's block is, at every point, the whole weight matrix. -/
theorem wts_block (c : Dev nD) (t : Fin cfg0.N) (y : S256x128.Idx) :
    (iblk0 V c 1 t : Vec Ideal S256x128 .bf16) y = (V c main_v14 : S256x128.Idx → EReal) y := by
  obtain ⟨-, -, -, -, e0, e1, -⟩ := block_index t
  unfold iblk0
  rw [View.read_apply]
  show V c main_v14 (((cfg0.win 1).blk t).view.emb y) = V c main_v14 y
  refine congrArg (V c main_v14) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The normalisation window's block at point `t` is rows `5000 t … 5000 t + 4999` of the normalisation column. -/
theorem norm_block (c : Dev nD) (t : Fin cfg0.N) (y : S5000x1.Idx) (z : S100000x1.Idx)
    (h0 : (z 0).val = t.val * 5000 + (y 0).val) (h1 : (z 1).val = (y 1).val) :
    (iblk0 V c 2 t : Vec Ideal S5000x1 .f32) y = (V c main_v15 : S100000x1.Idx → EReal) z := by
  obtain ⟨-, -, -, -, -, -, e0, e1⟩ := block_index t
  unfold iblk0
  rw [View.read_apply]
  show V c main_v15 (((cfg0.win 2).blk t).view.emb y) = V c main_v15 z
  refine congrArg (V c main_v15) (funext fun a => Fin.ext ?_)
  match a with
  | ⟨0, _⟩ => show win0_2.index t (0 : Fin 2) * 5000 + 1 * (y 0).val = (z 0).val; omega
  | ⟨1, _⟩ => show win0_2.index t (1 : Fin 2) * 1 + 1 * (y 1).val = (z 1).val; omega

/-! ## From the blocks to the array -/

/-- What point `t` writes back is block `t` of the whole-array function of the arrays at entry. -/
theorem flushed_eq (c : Dev nD) (t : Fin cfg0.N) :
    (dat0 (F := Ideal) V c).flushed 3 t
      = ((cfg0.win 3).blk t).view.read (Elt Ideal) (Cert.Gcn.G0 (V c main_arg0) (V c main_v14) (V c main_v15)) := by
  show (cfg0.win 3).cut (grid0.coords t) ((dat0 V c).after 3 t) = _
  rw [after0_3]
  unfold out0_3
  rw [View.canon_unit_zero origin_eq]
  simp only [View.ld_unit_zero (S := S5000x256) origin_eq, View.ld_unit_zero (S := S256x128) origin_eq, View.ld_unit_zero (S := S5000x1) origin_eq]
  obtain ⟨e0, e1, -⟩ := block_index t
  funext j
  show k0_pay1 (iblk0 V c 0 t) (iblk0 V c 1 t) (iblk0 V c 2 t) j
    = Cert.Gcn.G0 (V c main_arg0) (V c main_v14) (V c main_v15) (((cfg0.win 3).blk t).view.emb j)
  refine block_value (V c main_arg0) (V c main_v14) (V c main_v15) (iblk0 V c 0 t) (iblk0 V c 1 t) (iblk0 V c 2 t) t.val
    (fun y z h0 h1 => feat_block V c t y z h0 h1) (fun y => wts_block V c t y) (fun y z h0 h1 => norm_block V c t y z h0 h1)
    j (((cfg0.win 3).blk t).view.emb j) ?_ ?_
  · show win0_3.index t (0 : Fin 2) * 5000 + 1 * (j 0).val = t.val * 5000 + (j 0).val; omega
  · show win0_3.index t (1 : Fin 2) * 128 + 1 * (j 1).val = (j 1).val; omega

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

/-- Every index of the output array is in some point's block: row `r` is in the block of point `r / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, -⟩ := block_index t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array of the first launch after its last grid point is `G0` of the arrays at entry. -/
theorem final (c : Dev nD) :
    (dat0 (F := Ideal) V c).arrAt 3 cfg0.N = Cert.Gcn.G0 (V c main_arg0) (V c main_v14) (V c main_v15) :=
  (dat0 V c).arrAt_eq_of_cover 3 (Cert.Gcn.G0 (V c main_arg0) (V c main_v14) (V c main_v15)) (fun t _ => flushed_eq V c t) covered

end Cert.KernelIdeal.Region0

end
-- ==== Proof.Region1.lean ====
/-
  The second launch, read as a value: after its twenty grid points the output array holds, at every index,
  `Cert.Gcn.G1` of the four arrays the launch finds at entry (the aggregated neighbour sums, the nodes' own scaled
  rows, the normalisation column, the bias row).
-/
import proofs.«421425_j4363686773057_3_alg».proof.Proof.Gen.KernelIdeal.Frame
import proofs.«421425_j4363686773057_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The offsets of a whole-block access are zero on both axes. -/
theorem zero_offsets : (![0, 0] : Fin 2 → Nat) = fun _ => 0 := funext fun a => by fin_cases a <;> rfl

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic at one element of the block: the row's normalisation times the sum of the two rows'
    entries, plus the channel's bias. -/
theorem pay_apply (d : Vec Ideal S5000x1 .f32) (s g : Vec Ideal S5000x128 .f32) (b : Vec Ideal S1x128 .f32)
    (p : Fin 5000) (q : Fin 128) :
    k1_pay1 d s g b (ix2 p q) = d (ix2 p (0 : Fin 1)) * (s (ix2 p q) + g (ix2 p q)) + b (ix2 (0 : Fin 1) q) := by
  unfold k1_pay1
  simp only [shapeCast_self]
  rw [addf_apply, mulf_apply, addf_apply, broadcastTo_1b_ab_apply, broadcastTo_a1_ab_apply]

/-- The windows' index maps over the grid: at point `t` every row-blocked window sits at block row `t`, block column 0,
    and the bias row's window at its one block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Element `x` of the neighbour-sum block at point `t` is the array's entry in row `5000 t + x 0`, column `x 1`. -/
theorem blk_s_apply (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v20 : S100000x128.Idx → EReal) k := by
  obtain ⟨e0, e1, -⟩ := index_facts t
  unfold iblk1
  rw [View.read_apply]
  show V c main_v20 _ = V c main_v20 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The same for the block of the nodes' own rows. -/
theorem blk_g_apply (c : Dev nD) (t : Fin cfg1.N) (x : S5000x128.Idx) (k : S100000x128.Idx)
    (hk0 : (k 0).val = t.val * 5000 + (x 0).val) (hk1 : (k 1).val = (x 1).val) :
    (iblk1 V c 1 t : Vec Ideal S5000x128 .f32) x = (V c main_v16 : S100000x128.Idx → EReal) k := by
  obtain ⟨-, -, e0, e1, -⟩ := index_facts t
  unfold iblk1
  rw [View.read_apply]
  show V c main_v16 _ = V c main_v16 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- Element `x` of the normalisation column's block at point `t` is the column's entry in row `5000 t + x 0`. -/
theorem blk_d_apply (c : Dev nD) (t : Fin cfg1.N) (x : S5000x1.Idx) (k : S100000x1.Idx)
    (hk0 : (k 0).val = t.val * 5000 + (x 0).val) :
    (iblk1 V c 2 t : Vec Ideal S5000x1 .f32) x = (V c main_v21 : S100000x1.Idx → EReal) k := by
  obtain ⟨-, -, -, -, e0, e1, -⟩ := index_facts t
  unfold iblk1
  rw [View.read_apply]
  show V c main_v21 _ = V c main_v21 _
  congr 1
  funext a
  apply Fin.ext
  match a with
  | ⟨0, _⟩ => show win1_2.index t 0 * 5000 + 1 * (x 0).val = (k 0).val; rw [e0, hk0]; omega
  | ⟨1, _⟩ =>
    show win1_2.index t 1 * 1 + 1 * (x 1).val = (k 1).val
    have hx : (x 1).val < 1 := (x 1).isLt
    have hk : (k 1).val < 1 := (k 1).isLt
    rw [e1]; omega

/-- The bias row's one block is the whole row, at every point. -/
theorem blk_b_apply (c : Dev nD) (t : Fin cfg1.N) (x : S1x128.Idx) :
    (iblk1 V c 3 t : Vec Ideal S1x128 .f32) x = (V c main_v22 : S1x128.Idx → EReal) x := by
  obtain ⟨-, -, -, -, -, -, e0, e1, -⟩ := index_facts t
  unfold iblk1
  rw [View.read_apply]
  show V c main_v22 _ = V c main_v22 _
  congr 1
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

/-- One element: if the blocks' entries are the arrays' entries at the index `i` (row and column of `i` for the two
    row arrays, row of `i` for the column, column of `i` for the bias row), the body's result there is `G1` at `i`. -/
theorem elem_eq (d : Vec Ideal S5000x1 .f32) (s g : Vec Ideal S5000x128 .f32) (b : Vec Ideal S1x128 .f32)
    (S G : S100000x128.Idx → EReal) (D : S100000x1.Idx → EReal) (B : S1x128.Idx → EReal)
    (p : Fin 5000) (q : Fin 128) (i : S100000x128.Idx)
    (hs : s (ix2 p q) = S i) (hg : g (ix2 p q) = G i)
    (hd : d (ix2 p (0 : Fin 1)) = D (ix2 (i 0) (0 : Fin 1))) (hb : b (ix2 (0 : Fin 1) q) = B (ix2 (0 : Fin 1) (i 1))) :
    k1_pay1 d s g b (ix2 p q) = Cert.Gcn.G1 S G D B i := by
  rw [pay_apply, hs, hg, hd, hb]
  rfl

/-- What grid point `t` writes back is block `t` of `G1` of the arrays the launch finds at entry. -/
theorem flushed_eq (c : Dev nD) (t : Fin cfg1.N) :
    (dat1 (F := Ideal) V c).flushed 4 t = ((cfg1.win 4).blk t).view.read (Elt Ideal)
      (Cert.Gcn.G1 (V c main_v20) (V c main_v16) (V c main_v21) (V c main_v22)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨-, -, -, -, -, -, -, -, e0, e1⟩ := index_facts t
  funext j
  obtain ⟨p, q, rfl⟩ : ∃ (p : Fin 5000) (q : Fin 128), j = ix2 p q := ⟨j 0, j 1, eq_ix2 j⟩
  have h0 : ((((cfg1.win 4).blk t).view.emb (ix2 p q) : S100000x128.Idx) 0).val = t.val * 5000 + p.val := by
    show win1_4.index t 0 * 5000 + 1 * p.val = _; rw [e0]; omega
  have h1 : ((((cfg1.win 4).blk t).view.emb (ix2 p q) : S100000x128.Idx) 1).val = q.val := by
    show win1_4.index t 1 * 128 + 1 * q.val = _; rw [e1]; omega
  refine elem_eq (iblk1 V c 2 t) (iblk1 V c 0 t) (iblk1 V c 1 t) (iblk1 V c 3 t) _ _ _ _ p q
    (((cfg1.win 4).blk t).view.emb (ix2 p q)) ?_ ?_ ?_ ?_
  · exact blk_s_apply V c t (ix2 p q) _ h0 h1
  · exact blk_g_apply V c t (ix2 p q) _ h0 h1
  · exact blk_d_apply V c t (ix2 p (0 : Fin 1)) _ h0
  · refine (blk_b_apply V c t (ix2 (0 : Fin 1) q)).trans ?_
    congr 1
    funext a
    apply Fin.ext
    match a with
    | ⟨0, _⟩ => rfl
    | ⟨1, _⟩ => exact h1.symm

/-- An index of the output array is in point `t`'s block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v23).slice (win1_4.rect t)).set ↔ _
  rw [View.set_slice_whole, Rect.mem_set_unit]
  exact Iff.rfl

/-- Every index of the output array is in the block of the point its row names: row `r` is written by point
    `r / 5000`, and the block spans all 128 channels. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  obtain ⟨-, -, -, -, -, -, -, -, e0, e1⟩ := index_facts t
  have ht : t.val = (i 0).val / 5000 := rfl
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- The output array of the second launch after its last grid point is `G1` of the arrays at entry. -/
theorem final (c : Dev nD) :
    (dat1 (F := Ideal) V c).arrAt 4 cfg1.N = Cert.Gcn.G1 (V c main_v20) (V c main_v16) (V c main_v21) (V c main_v22) :=
  (dat1 (F := Ideal) V c).arrAt_eq_of_cover 4 _ (fun t _ => flushed_eq V c t) covered

end Cert.KernelIdeal.Region1

end
-- ==== Proof.KHost.lean ====
/-
  The kernel program's host code, composed: every buffer the two launches read, and the program's result, as
  functions of the launch contents of the arguments, on the extended reals.

  The stretch-by-stretch reads of `KStretch.lean` are chained back to the launch memory; the first launch's result is
  `Cert.Gcn.G0` of its entry arrays (`Region0.lean`) and the second's `Cert.Gcn.G1` of its own (`Region1.lean`); together
  they give the program's result buffer as `HostValue.result` of the four argument arrays.
-/
import proofs.«421425_j4363686773057_3_alg».proof.Proof.KStretch
import proofs.«421425_j4363686773057_3_alg».proof.Proof.Region0
import proofs.«421425_j4363686773057_3_alg».proof.Proof.Region1

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first launch's entry -/

theorem V3_arg0 (c : Dev nD) : V3 m ρ c main_arg0 = m ((c : Thread nD τ).loc main_arg0) :=
  (W3_arg0 m ρ c).trans ((W2_arg0 m ρ c).trans ((W1_arg0 m ρ c).trans (W0_eq m ρ c main_arg0)))

theorem W3_arg3' (c : Dev nD) : W3 m ρ c (Proc.devRef .tc main_arg3) = m ((c : Thread nD τ).loc main_arg3) :=
  (W3_arg3 m ρ c).trans ((W2_arg3 m ρ c).trans ((W1_arg3 m ρ c).trans (W0_eq m ρ c main_arg3)))

theorem V3_v14 (c : Dev nD) :
    V3 m ρ c main_v14 = (truncf .bf16 (m ((c : Thread nD τ).loc main_arg2) : FVec Ideal S256x128 .f32) bitsLt_bf16_f32 : FVec Ideal S256x128 .bf16) := by
  show W3 m ρ c (Proc.devRef .tc main_v14) = _
  rw [W3_v14, W2_arg2, W1_arg2, W0_eq]

theorem W3_v1' (c : Dev nD) : W3 m ρ c (Proc.devRef .tc main_v1) = rowOf (m ((c : Thread nD τ).loc main_arg1)) := by
  rw [W3_v1, W2_v1, W1_v1, W0_eq]

theorem W3_v3' (c : Dev nD) : W3 m ρ c (Proc.devRef .tc main_v3) = colOf (m ((c : Thread nD τ).loc main_arg1)) := by
  rw [W3_v3, W2_v3, W1_v3, W0_eq]

/-- The normalisation, after its select: the three operations on the degree. -/
theorem W2_v13' (c : Dev nD) : W2 m ρ c (Proc.devRef .tc main_v13) = dinvOf (m ((c : Thread nD τ).loc main_arg1)) := by
  rw [W2_v13, W1_v11, W1_v12, W1_cst3, W0_eq, ← dinvF_ideal]
  rfl

theorem W3_v13' (c : Dev nD) : W3 m ρ c (Proc.devRef .tc main_v13) = dinvOf (m ((c : Thread nD τ).loc main_arg1)) := by
  rw [W3_v13, W2_v13']

theorem V3_v15 (c : Dev nD) : V3 m ρ c main_v15 = shapeCast S100000x1 (dinvOf (m ((c : Thread nD τ).loc main_arg1))) shapeCasts_S100000_S100000x1 := by
  show W3 m ρ c (Proc.devRef .tc main_v15) = _
  rw [W3_v15, W2_v13']

/-! ## After the first launch -/

/-- The first launch's result: the scaled linear transform of the arguments. -/
theorem W4_v16 (c : Dev nD) :
    W4 m ρ c (Proc.devRef .tc main_v16)
      = Cert.Gcn.G0 (m ((c : Thread nD τ).loc main_arg0)) (truncf .bf16 (m ((c : Thread nD τ).loc main_arg2) : FVec Ideal S256x128 .f32) bitsLt_bf16_f32 : FVec Ideal S256x128 .bf16)
          (shapeCast S100000x1 (dinvOf (m ((c : Thread nD τ).loc main_arg1))) shapeCasts_S100000_S100000x1) := by
  have h := (W4_arr m ρ c 3).trans (Cert.KernelIdeal.Region0.final (V3 m ρ) c)
  rw [V3_arg0, V3_v14, V3_v15] at h
  exact h

theorem W4_v1 (c : Dev nD) : W4 m ρ c (Proc.devRef .tc main_v1) = rowOf (m ((c : Thread nD τ).loc main_arg1)) :=
  (W4_of_ne m ρ c main_v1 (by decide)).trans (W3_v1' m ρ c)
theorem W4_v3 (c : Dev nD) : W4 m ρ c (Proc.devRef .tc main_v3) = colOf (m ((c : Thread nD τ).loc main_arg1)) :=
  (W4_of_ne m ρ c main_v3 (by decide)).trans (W3_v3' m ρ c)
theorem W4_v13 (c : Dev nD) : W4 m ρ c (Proc.devRef .tc main_v13) = dinvOf (m ((c : Thread nD τ).loc main_arg1)) :=
  (W4_of_ne m ρ c main_v13 (by decide)).trans (W3_v13' m ρ c)
theorem W4_arg3 (c : Dev nD) : W4 m ρ c (Proc.devRef .tc main_arg3) = m ((c : Thread nD τ).loc main_arg3) :=
  (W4_of_ne m ρ c main_arg3 (by decide)).trans (W3_arg3' m ρ c)

/-! ## At the second launch's entry -/

/-- The neighbour sums: the first launch's rows gathered at the sources and summed by target. -/
theorem W6_v20' (c : Dev nD) :
    W6 m ρ c (Proc.devRef .tc main_v20)
      = aggOf (W4 m ρ c (Proc.devRef .tc main_v16)) (rowOf (m ((c : Thread nD τ).loc main_arg1))) (colOf (m ((c : Thread nD τ).loc main_arg1))) := by
  rw [W6_v20, W5_v17, W5_v3, W4_v1, W4_v3, aggF_takeF_ideal]

theorem W6_v16' (c : Dev nD) : W6 m ρ c (Proc.devRef .tc main_v16) = W4 m ρ c (Proc.devRef .tc main_v16) := by
  rw [W6_v16, W5_v16]

theorem W6_v21' (c : Dev nD) :
    W6 m ρ c (Proc.devRef .tc main_v21) = shapeCast S100000x1 (dinvOf (m ((c : Thread nD τ).loc main_arg1))) shapeCasts_S100000_S100000x1 := by
  rw [W6_v21, W5_v13, W4_v13]

theorem W6_v22' (c : Dev nD) :
    W6 m ρ c (Proc.devRef .tc main_v22) = shapeCast S1x128 (m ((c : Thread nD τ).loc main_arg3) : FVec Ideal S128 .f32) shapeCasts_S128_S1x128 := by
  rw [W6_v22, W5_arg3, W4_arg3]

/-! ## The result -/

/-- The program's result buffer after the run is `result` of the arguments' launch contents. -/
theorem W7_v23 (c : Dev nD) :
    W7 m ρ c (Proc.devRef .tc main_v23)
      = result (m ((c : Thread nD τ).loc main_arg0)) (m ((c : Thread nD τ).loc main_arg1)) (m ((c : Thread nD τ).loc main_arg2)) (m ((c : Thread nD τ).loc main_arg3)) := by
  have h := (W7_arr m ρ c 4).trans (Cert.KernelIdeal.Region1.final (V6 m ρ) c)
  have e20 : V6 m ρ c main_v20 = W6 m ρ c (Proc.devRef .tc main_v20) := rfl
  have e16 : V6 m ρ c main_v16 = W6 m ρ c (Proc.devRef .tc main_v16) := rfl
  have e21 : V6 m ρ c main_v21 = W6 m ρ c (Proc.devRef .tc main_v21) := rfl
  have e22 : V6 m ρ c main_v22 = W6 m ρ c (Proc.devRef .tc main_v22) := rfl
  rw [e20, e16, e21, e22, W6_v20', W6_v16', W6_v21', W6_v22', W4_v16] at h
  exact h

end Cert.KernelIdeal.HostValue

end
-- ==== Proof.PreDecode.lean ====
/-
  What the precondition says, element by element: every entry of the three float inputs is a real number (finite),
  and every entry of the edge-index array, read as a signed integer, is a node number in `[0, 100000)`.
-/
import proofs.«421425_j4363686773057_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

/-- The scalar shape has exactly one index. -/
instance : Subsingleton S_.Idx := ⟨fun a b => funext fun d => d.elim0⟩

/-- An extended real whose absolute value `max a (-a)` lies strictly below `+∞` is a real number:
    at `⊥` and at `⊤` the absolute value is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- The single-precision pattern `0x7F800000` (sign 0, exponent all ones, fraction 0) denotes `+∞`. -/
theorem ofBits_inf : Ideal.ofBits .f32 0x7F800000#32 = (⊤ : EReal) := by
  simp [Ideal.ofBits, Ideal.ieee]

/-- `all(|v| < +∞)` over an array of any shape, read back: the and-reduction over all axes being 1 makes the
    comparison 1 at every index, the comparison is the strict order of the extended reals, and the constant
    compared against is `+∞`; so every entry is a real number. -/
theorem all_finite {s : Shape} {axes : List (Fin s.rank)} (hb : S_.BroadcastsInDim s (![] : Fin 0 → Fin s.rank))
    (hr : s.ReducesTo axes S_) (h0 : 0 < S_.numel) (v : FVec Ideal s .f32)
    (h : Host.reduce IntOp.andi (cmpf .olt (Host.absf v) (broadcastInDim s ![] hb (constant S_ .f32 0x7F800000#32)))
          (constantI S_ 1 1#1) hr h0 ix0 = 1#1) (i : s.Idx) : ∃ r : ℝ, v i = (r : EReal) := by
  have e := Host.reduce_andi_all _ _ hr h0 ix0 h i
  have e' : Ideal.cmp .olt (max (v i) (-(v i))) (Ideal.ofBits .f32 0x7F800000#32) = 1#1 := e
  rw [ofBits_inf] at e'
  simp only [Ideal.cmp, StableHlo.Predicate.ofBool_eq_one_iff, decide_eq_true_eq] at e'
  exact real_of_abs_lt_top _ e'

/-- `all((0 ≤ v) & (v < 100000))` over a 32-bit integer array of any shape, read back: both signed comparisons
    are 1 at every index, and a signed comparison of words is the order of their signed values. -/
theorem all_in_range {s : Shape} {axes : List (Fin s.rank)} (hb : S_.BroadcastsInDim s (![] : Fin 0 → Fin s.rank))
    (hr : s.ReducesTo axes S_) (h0 : 0 < S_.numel) (v : IVec s 32)
    (h : Host.reduce IntOp.andi
          (andi (cmpi .sge v (broadcastInDim s ![] hb (constantI S_ 32 0#32)))
            (cmpi .slt v (broadcastInDim s ![] hb (constantI S_ 32 100000#32))))
          (constantI S_ 1 1#1) hr h0 ix0 = 1#1) (j : s.Idx) : 0 ≤ (v j).toInt ∧ (v j).toInt < 100000 := by
  have e := Host.reduce_andi_all _ _ hr h0 ix0 h j
  have e' : IntOp.andi (IntOp.cmpi .sge (v j) 0#32) (IntOp.cmpi .slt (v j) 100000#32) = 1#1 := e
  obtain ⟨e1, e2⟩ := IntOp.andi_eq_one.1 e'
  simp only [IntOp.cmpi, StableHlo.Predicate.ofBool_eq_one_iff, BitVec.sle, BitVec.slt, decide_eq_true_eq] at e1 e2
  have z : (0#32 : BitVec 32).toInt = 0 := by decide
  have c : (100000#32 : BitVec 32).toInt = 100000 := by decide
  rw [z] at e1
  rw [c] at e2
  exact ⟨e1, e2⟩

/-- The precondition, decoded: finite float entries, edge indices in range. -/
theorem decode [Cert.Pre_finite_inputs.Facts]
    (x : FVec Ideal S100000x256 .f32) (ei : IVec S2x1600000 32) (w : FVec Ideal S256x128 .f32) (b : FVec Ideal S128 .f32)
    (h : Cert.Pre_finite_inputs.fn (F := Ideal) x ei w b = fun _ => 1#1) :
    (∀ i, ∃ r : ℝ, x i = (r : EReal)) ∧ (∀ i, ∃ r : ℝ, w i = (r : EReal)) ∧ (∀ i, ∃ r : ℝ, b i = (r : EReal))
      ∧ (∀ j, 0 ≤ (ei j).toInt ∧ (ei j).toInt < 100000) := by
  have h0 := congrFun h ValueIdx.ix0
  dsimp only [Cert.Pre_finite_inputs.fn, Cert.Pre_finite_inputs.fn_part1] at h0
  -- the result is the conjunction of the four tests, nested to the left
  obtain ⟨h123, h4⟩ := IntOp.andi_eq_one.1 h0
  obtain ⟨h12, h3⟩ := IntOp.andi_eq_one.1 h123
  obtain ⟨h1, h2⟩ := IntOp.andi_eq_one.1 h12
  exact ⟨all_finite _ _ _ x h1, all_finite _ _ _ w h2, all_finite _ _ _ b h3, all_in_range _ _ _ ei h4⟩

end Cert.PreDecode

end
-- ==== Proof.Nodes.lean ====
/-
  Shared vocabulary for reading both programs at an index.

  `nodeOf v` is the node a 32-bit index word names: the word read as a signed integer and clamped into
  `[0, 99999]` — the row a gather reads for that word. For a word already in `[0, 100000)` it is the word itself
  (`nodeOf_val`). `lin x w j l` is channel `l` of the linear transform at node `j`: `∑ k, x j k * w k l`.
-/
import Idealize.ShloMosaic.PureOps.Ideal
import Idealize.ShloMosaic.Lib.ValueIdx

noncomputable section

open scoped BigOperators

namespace Cert.Gcn

open Idealize.ShloMosaic Idealize.ShloMosaic.ValueIdx

/-- The node an index word names: read signed, clamped into the table. -/
def nodeOf (v : BitVec 32) : Fin 100000 := ⟨min v.toInt.toNat 99999, by omega⟩

/-- An index word in range names itself. -/
theorem nodeOf_val {v : BitVec 32} (h0 : 0 ≤ v.toInt) (h1 : v.toInt < 100000) : ((nodeOf v).val : ℤ) = v.toInt := by
  show ((min v.toInt.toNat 99999 : ℕ) : ℤ) = v.toInt
  omega

/-- One channel of the linear transform at a node. -/
def lin (x : (⟨2, ![100000, 256]⟩ : Shape).Idx → EReal) (w : (⟨2, ![256, 128]⟩ : Shape).Idx → EReal)
    (j : Fin 100000) (l : Fin 128) : EReal :=
  ∑ k : Fin 256, x (ix2 j k) * w (ix2 k l)

/-- The normalisation of a node of degree `d`, as both programs compute it. -/
def normOf (d : EReal) : EReal :=
  Scalar.select (Ideal.cmp .ogt d (Ideal.ofBits .f32 0x00000000#32)) (Ideal.rsqrt d) (Ideal.ofBits .f32 0x00000000#32)

end Cert.Gcn

end
-- ==== Proof.LibSegment.lean ====
/-
  General lemmas: the host's segment sum (a float scatter-add whose scatter indices are an [M, 1] column of row
  numbers), read at an index on the extended reals.

  A segment sum into `N` rows adds update `e` to row `i` exactly when the `e`-th start index, read as a signed integer,
  is `i`; an index outside `[0, N)` matches no row, so its update is dropped.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate

noncomputable section

open scoped BigOperators

namespace Cert.LibSegment

open Idealize.ShloMosaic Idealize.ShloMosaic.ValueIdx Idealize.ShloMosaic.StableHlo.Predicate

/-- The dimension numbers of a segment sum of scalars: operand [N], segment ids as an [M, 1] column, updates [M]. -/
def segDims1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The dimension numbers of a segment sum of rows: operand [N, C], segment ids as an [M, 1] column, updates [M, C]. -/
def segDims2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-! ## Scalars: operand [N], updates [M]

The operand's one axis is the start-indexed axis and is inserted (no window axis goes to it), so update `e` lands at
row `start`, the `e`-th entry of the index column read signed. -/

/-- The window's start on the operand's axis for update `e`: entry `e` of the index column, read signed. -/
theorem start1_0 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).start (ix1 e) idx 0 = (idx (ixP e)).toInt := by
  unfold ScatterDims.start
  rw [dif_pos (show (0 : Fin 1) ∈ (segDims1 N M wf).scatterDimsToOperandDims from List.mem_singleton.mpr rfl)]
  congr 2
  funext b
  match b with
  | ⟨0, _⟩ => rfl
  | ⟨1, _⟩ => rfl

/-- The operand's axis is inserted, so the window coordinate on it is zero. -/
theorem window1_0 {N M : Nat} (wf : ScatterDims.WF ⟨1, ![N]⟩ ⟨2, ![M, 1]⟩ ⟨1, ![M]⟩ [] [0] [0] 1)
    (j : (⟨1, ![M]⟩ : Shape).Idx) :
    (segDims1 N M wf).window j 0 = 0 := by
  unfold ScatterDims.window
  have h : (0 : Fin 1) ∉ (segDims1 N M wf).sKept :=
    (by decide : (0 : Fin 1) ∉ (List.finRange 1).filter (· ∉ ([0] : List (Fin 1))))
  rw [dif_neg h]

/-- Where update `e` lands: at the row its start index names when that lies in `[0, N)`, nowhere otherwise. -/
theorem resultIdx1 {N M w : Nat} (wf : ScatterDims.WF ⟨1, ![N]⟩ ⟨2, ![M, 1]⟩ ⟨1, ![M]⟩ [] [0] [0] 1)
    (idx : IVec ⟨2, ![M, 1]⟩ w) (e : Fin M) :
    (segDims1 N M wf).resultIdx? (ix1 e) idx =
      if h : 0 ≤ (idx (ixP e)).toInt ∧ (idx (ixP e)).toInt < (N : ℤ) then
        some (ix1 ⟨(idx (ixP e)).toInt.toNat, by omega⟩) else none := by
  have s0 := start1_0 wf idx e
  have w0 := window1_0 wf (ix1 e)
  unfold ScatterDims.resultIdx?
  by_cases h : 0 ≤ (idx (ixP e)).toInt ∧ (idx (ixP e)).toInt < (N : ℤ)
  · have hall : ∀ a, 0 ≤ (segDims1 N M wf).start (ix1 e) idx a + (segDims1 N M wf).window (ix1 e) a ∧
        (segDims1 N M wf).start (ix1 e) idx a + (segDims1 N M wf).window (ix1 e) a
          < ((⟨1, ![N]⟩ : Shape).size a : ℤ) := by
      refine Fin.forall_fin_one.2 ?_
      show 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ)
      rw [s0, w0]; omega
    rw [dif_pos h, dif_pos hall]
    congr 1
    funext a
    match a with
    | ⟨0, _⟩ =>
      refine Fin.ext ?_
      show ((segDims1 N M wf).start (ix1 e) idx 0 + ((segDims1 N M wf).window (ix1 e) 0 : ℕ)).toNat = _
      rw [s0, w0]; simp
  · rw [dif_neg h, dif_neg]
    intro hall
    apply h
    have h0 : 0 ≤ (segDims1 N M wf).start (ix1 e) idx 0 + ((segDims1 N M wf).window (ix1 e) 0 : ℕ) ∧
          (segDims1 N M wf).start (ix1 e) idx 0 + ((segDims1 N M wf).window (ix1 e) 0 : ℕ) < (N : ℤ) := hall 0
    rw [s0, w0] at h0
    omega

/-- Update `e` lands on row `i` exactly when its start index, read signed, is `i`. -/
theorem resultIdx1_eq_some_iff {N M w : Nat}
    (wf : ScatterDims.WF ⟨1, ![N]⟩ ⟨2, ![M, 1]⟩ ⟨1, ![M]⟩ [] [0] [0] 1)
    (idx : IVec ⟨2, ![M, 1]⟩ w) (e : Fin M) (i : Fin N) :
    (segDims1 N M wf).resultIdx? (ix1 e) idx = some (ix1 i) ↔ (idx (ixP e)).toInt = (i.val : ℤ) := by
  rw [resultIdx1]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      omega
    · rw [dif_neg h] at hEq
      exact absurd hEq (by simp)
  · intro ht
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of scalars at row `i`: the operand's entry plus the updates whose segment id is `i`. -/
theorem scatterAdd_seg1_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (i : Fin N) :
    Ideal.hostScatterAdd (segDims1 N M wf) x idx upd (ix1 i)
      = x (ix1 i) + ∑ e : Fin M, if (idx (ixP e)).toInt = (i.val : ℤ) then upd (ix1 e) else 0 := by
  unfold Ideal.hostScatterAdd
  congr 1
  -- the filtered sum as a sum of conditionals, re-indexed by the update's one coordinate
  rw [Finset.sum_filter, ← Equiv.sum_comp (idxEquiv1 (n := M)).symm]
  refine Finset.sum_congr rfl fun e _ => ?_
  show (if (segDims1 N M wf).resultIdx? (ix1 e) idx = some (ix1 i) then upd (ix1 e) else 0) = _
  simp only [resultIdx1_eq_some_iff]

/-! ## Rows: operand [N, C], updates [M, C]

Axis 0 of the operand is the start-indexed, inserted axis; axis 1 is the window axis, fed by the updates' axis 1. So
update `(e, c)` lands at row `start` (the `e`-th entry of the index column read signed), column `c`. -/

/-- The window's start on the row axis for update `(e, c)`: entry `e` of the index column, read signed. -/
theorem start2_0 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).start (ix2 e c) idx 0 = (idx (ixP e)).toInt := by
  unfold ScatterDims.start
  rw [dif_pos (show (0 : Fin 2) ∈ (segDims2 N M C wf).scatterDimsToOperandDims from List.mem_singleton.mpr rfl)]
  congr 2
  funext b
  match b with
  | ⟨0, _⟩ => rfl
  | ⟨1, _⟩ => rfl

/-- The column axis is not start-indexed: its window starts at zero. -/
theorem start2_1 {N M C w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) :
    (segDims2 N M C wf).start j idx 1 = 0 := by
  unfold ScatterDims.start
  have h : (1 : Fin 2) ∉ (segDims2 N M C wf).scatterDimsToOperandDims :=
    (by decide : (1 : Fin 2) ∉ ([0] : List (Fin 2)))
  rw [dif_neg h]

/-- The row axis is inserted, so the window coordinate on it is zero. -/
theorem window2_0 {N M C : Nat} (wf : ScatterDims.WF ⟨2, ![N, C]⟩ ⟨2, ![M, 1]⟩ ⟨2, ![M, C]⟩ [1] [0] [0] 1)
    (j : (⟨2, ![M, C]⟩ : Shape).Idx) :
    (segDims2 N M C wf).window j 0 = 0 := by
  unfold ScatterDims.window
  have h : (0 : Fin 2) ∉ (segDims2 N M C wf).sKept :=
    (by decide : (0 : Fin 2) ∉ (List.finRange 2).filter (· ∉ ([0] : List (Fin 2))))
  rw [dif_neg h]

/-- The window coordinate on the column axis is the update's own column. -/
theorem window2_1 {N M C : Nat} (wf : ScatterDims.WF ⟨2, ![N, C]⟩ ⟨2, ![M, 1]⟩ ⟨2, ![M, C]⟩ [1] [0] [0] 1)
    (e : Fin M) (c : Fin C) :
    (segDims2 N M C wf).window (ix2 e c) 1 = c.val := by
  unfold ScatterDims.window
  have h : (1 : Fin 2) ∈ (segDims2 N M C wf).sKept :=
    (by decide : (1 : Fin 2) ∈ (List.finRange 2).filter (· ∉ ([0] : List (Fin 2))))
  rw [dif_pos h]
  rfl

/-- Where update `(e, c)` lands: at the row its start index names, column `c`, when that row lies in `[0, N)`; nowhere
    otherwise. -/
theorem resultIdx2 {N M C w : Nat} (wf : ScatterDims.WF ⟨2, ![N, C]⟩ ⟨2, ![M, 1]⟩ ⟨2, ![M, C]⟩ [1] [0] [0] 1)
    (idx : IVec ⟨2, ![M, 1]⟩ w) (e : Fin M) (c : Fin C) :
    (segDims2 N M C wf).resultIdx? (ix2 e c) idx =
      if h : 0 ≤ (idx (ixP e)).toInt ∧ (idx (ixP e)).toInt < (N : ℤ) then
        some (ix2 ⟨(idx (ixP e)).toInt.toNat, by omega⟩ c) else none := by
  have s0 := start2_0 wf idx e c
  have s1 := start2_1 wf idx (ix2 e c)
  have w0 := window2_0 wf (ix2 e c)
  have w1 := window2_1 wf e c
  unfold ScatterDims.resultIdx?
  by_cases h : 0 ≤ (idx (ixP e)).toInt ∧ (idx (ixP e)).toInt < (N : ℤ)
  · have hall : ∀ a, 0 ≤ (segDims2 N M C wf).start (ix2 e c) idx a + (segDims2 N M C wf).window (ix2 e c) a ∧
        (segDims2 N M C wf).start (ix2 e c) idx a + (segDims2 N M C wf).window (ix2 e c) a
          < ((⟨2, ![N, C]⟩ : Shape).size a : ℤ) := by
      refine Fin.forall_fin_two.2 ⟨?_, ?_⟩
      · show 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ)
        rw [s0, w0]; omega
      · show 0 ≤ (segDims2 N M C wf).start (ix2 e c) idx 1 + ((segDims2 N M C wf).window (ix2 e c) 1 : ℕ) ∧
          (segDims2 N M C wf).start (ix2 e c) idx 1 + ((segDims2 N M C wf).window (ix2 e c) 1 : ℕ) < (C : ℤ)
        rw [s1, w1]; have := c.isLt; omega
    rw [dif_pos h, dif_pos hall]
    congr 1
    funext a
    match a with
    | ⟨0, _⟩ =>
      refine Fin.ext ?_
      show ((segDims2 N M C wf).start (ix2 e c) idx 0 + ((segDims2 N M C wf).window (ix2 e c) 0 : ℕ)).toNat = _
      rw [s0, w0]; simp
    | ⟨1, _⟩ =>
      refine Fin.ext ?_
      show ((segDims2 N M C wf).start (ix2 e c) idx 1 + ((segDims2 N M C wf).window (ix2 e c) 1 : ℕ)).toNat = c.val
      rw [s1, w1]; simp
  · rw [dif_neg h, dif_neg]
    intro hall
    apply h
    have h0 : 0 ≤ (segDims2 N M C wf).start (ix2 e c) idx 0 + ((segDims2 N M C wf).window (ix2 e c) 0 : ℕ) ∧
          (segDims2 N M C wf).start (ix2 e c) idx 0 + ((segDims2 N M C wf).window (ix2 e c) 0 : ℕ) < (N : ℤ) := hall 0
    rw [s0, w0] at h0
    omega

/-- Update `(e, c)` lands on `(i, l)` exactly when its start index, read signed, is `i` and its column is `l`. -/
theorem resultIdx2_eq_some_iff {N M C w : Nat}
    (wf : ScatterDims.WF ⟨2, ![N, C]⟩ ⟨2, ![M, 1]⟩ ⟨2, ![M, C]⟩ [1] [0] [0] 1)
    (idx : IVec ⟨2, ![M, 1]⟩ w) (e : Fin M) (c : Fin C) (i : Fin N) (l : Fin C) :
    (segDims2 N M C wf).resultIdx? (ix2 e c) idx = some (ix2 i l) ↔
      (idx (ixP e)).toInt = (i.val : ℤ) ∧ c = l := by
  rw [resultIdx2]
  constructor
  · intro hEq
    by_cases h : 0 ≤ (idx (ixP e)).toInt ∧ (idx (ixP e)).toInt < (N : ℤ)
    · rw [dif_pos h] at hEq
      have hf := Option.some.inj hEq
      have h0 : (idx (ixP e)).toInt.toNat = i.val := congrArg Fin.val (congrFun hf 0)
      have h1 : c = l := congrFun hf 1
      exact ⟨by omega, h1⟩
    · rw [dif_neg h] at hEq
      exact absurd hEq (by simp)
  · rintro ⟨ht, rfl⟩
    have h : 0 ≤ (idx (ixP e)).toInt ∧ (idx (ixP e)).toInt < (N : ℤ) := by have := i.isLt; omega
    rw [dif_pos h]
    congr 2
    exact Fin.ext (by show (idx (ixP e)).toInt.toNat = i.val; omega)

/-- A segment sum of rows at row `i`, column `l`: the operand's entry plus column `l` of the update rows whose
    segment id is `i`. -/
theorem scatterAdd_seg2_apply {N M C w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (l : Fin C) :
    Ideal.hostScatterAdd (segDims2 N M C wf) x idx upd (ix2 i l)
      = x (ix2 i l) + ∑ e : Fin M, if (idx (ixP e)).toInt = (i.val : ℤ) then upd (ix2 e l) else 0 := by
  unfold Ideal.hostScatterAdd
  congr 1
  -- the filtered sum as a sum of conditionals over (row, column) of the updates
  rw [Finset.sum_filter, sum_idx2]
  refine Finset.sum_congr rfl fun e _ => ?_
  simp only [resultIdx2_eq_some_iff]
  -- for a fixed update row, only column `l` can match
  by_cases ht : (idx (ixP e)).toInt = (i.val : ℤ)
  · simp only [ht, true_and, if_true]
    rw [Finset.sum_ite_eq' Finset.univ l (fun c => upd (ix2 e c)), if_pos (Finset.mem_univ l)]
  · simp only [ht, false_and, if_false, Finset.sum_const_zero]

end Cert.LibSegment

end
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.KSide.lean ====
/-
  The kernel program's result, read at an index.

  At node `i`, channel `l`, when every edge index is a node number: the node's normalisation times (the neighbour sum
  over the edges into `i` of the source's scaled row, plus the node's own scaled row), plus the bias. A source in range
  passes the gather's in-bounds test, so no fill value is ever read; the scaled row at node `j` is
  `lin x w j l * dK j` (the rounding of the weights to the narrower format is the identity on the extended reals).
-/
import proofs.«421425_j4363686773057_3_alg».proof.Proof.KDefs
import proofs.«421425_j4363686773057_3_alg».proof.Proof.Nodes
import proofs.«421425_j4363686773057_3_alg».proof.Proof.LibSegment
import proofs.«421425_j4363686773057_3_alg».proof.Proof.LibGather
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

open scoped BigOperators

namespace Cert.KernelIdeal.KValue

open Cert.KernelIdeal Cert.KernelIdeal.Facts₀ Cert.KernelIdeal.Facts Cert.KernelIdeal.HostValue Cert.Gcn
open Idealize.ShloMosaic Idealize.ShloMosaic.ValueIdx

open Idealize.ShloMosaic.StableHlo.Predicate (ixP)

/-- The kernel program's normalisation at node `j`. -/
abbrev dK (x1 : IVec S2x1600000 32) (j : Fin 100000) : EReal := dinvOf x1 (ix1 j)

/-! ## Layout and pointwise operations read at an index

Each lemma below is stated for arbitrary operand arrays; the program's own arrays are instances. -/

/-- A broadcast scalar constant reads the constant everywhere. -/
theorem splat_apply {t : Shape} (dims : Fin S_.rank → Fin t.rank) (h : S_.BroadcastsInDim t dims) (b : BitVec 32) (j : t.Idx) :
    broadcastInDim t dims h (constant (F := Ideal) S_ .f32 b) j = Ideal.ofBits .f32 b := rfl

/-- A broadcast scalar integer constant reads the constant everywhere. -/
theorem splatI_apply {t : Shape} {w : Nat} (dims : Fin S_.rank → Fin t.rank) (h : S_.BroadcastsInDim t dims) (b : BitVec w)
    (j : t.Idx) : broadcastInDim t dims h (constantI S_ w b) j = b := rfl

/-- The table's last row number, broadcast in two steps to a column, reads the number everywhere. -/
theorem lim_apply (b : BitVec 32) (j : S1600000x1.Idx) :
    broadcastInDim S1600000x1 ![0, 1] bcast_S1x1_S1600000x1_0_1 (broadcastInDim S1x1 ![1] bcast_S1_S1x1_1 (constantI S1 32 b)) j
      = b := rfl

/-- An integer comparison of two arrays at an index compares the entries. -/
theorem cmpi_at {s : Shape} {w : Nat} (p : CmpIPredicate) (x y : IVec s w) (i : s.Idx) :
    cmpi p x y i = IntOp.cmpi p (x i) (y i) := rfl

/-- The conjunction of two one-bit arrays at an index is the conjunction of the entries. -/
theorem andi_at {s : Shape} {w : Nat} (x y : IVec s w) (i : s.Idx) : andi x y i = IntOp.andi (x i) (y i) := rfl

/-- Every index of a column is a row number. -/
theorem exists_ixP {n : Nat} (j : (⟨2, ![n, 1]⟩ : Shape).Idx) : ∃ e : Fin n, j = ixP e :=
  ⟨j 0, funext fun a => match a with
    | ⟨0, _⟩ => rfl
    | ⟨1, _⟩ => Subsingleton.elim (α := Fin 1) _ _⟩

/-- Edge `e`'s source is entry `(0, e)` of the edge-index array. -/
theorem rowOf_apply (x1 : IVec S2x1600000 32) (e : Fin 1600000) : rowOf x1 (ix1 e) = x1 (ix2 (0 : Fin 2) e) := by
  unfold rowOf
  refine (shapeCast_1a_a_apply _ _ e).trans ?_
  refine extractStridedSlice_apply _ _ _ _ (ix2 (0 : Fin 2) e) fun a => ?_
  match a with
  | ⟨0, _⟩ => rfl
  | ⟨1, _⟩ => show e.val = 0 + e.val; omega

/-- Edge `e`'s target is entry `(1, e)` of the edge-index array. -/
theorem colOf_apply (x1 : IVec S2x1600000 32) (e : Fin 1600000) : colOf x1 (ix1 e) = x1 (ix2 (1 : Fin 2) e) := by
  unfold colOf
  refine (shapeCast_1a_a_apply _ _ e).trans ?_
  refine extractStridedSlice_apply _ _ _ _ (ix2 (1 : Fin 2) e) fun a => ?_
  match a with
  | ⟨0, _⟩ => rfl
  | ⟨1, _⟩ => show e.val = 0 + e.val; omega

/-- A list of edge words kept as a column reads, at row `e`, the list's entry `e`. -/
theorem col_apply (v : IVec S1600000 32) (e : Fin 1600000) :
    broadcastInDim S1600000x1 ![0] bcast_S1600000_S1600000x1_0 v (ixP e) = v (ix1 e) := by
  refine broadcastInDim_apply _ _ _ _ (ix1 e) fun a => ?_
  match a with
  | ⟨0, _⟩ => rfl

/-- A per-edge value laid along the rows of the gathered table reads, at `(e, l)`, the value of edge `e`. -/
theorem rows_apply {α : Type} (m : S1600000.Idx → α) (e : Fin 1600000) (l : Fin 128) :
    broadcastInDim S1600000x128 ![0] bcast_S1600000_S1600000x128_0 m (ix2 e l) = m (ix1 e) := by
  refine broadcastInDim_apply _ _ _ _ (ix1 e) fun a => ?_
  match a with
  | ⟨0, _⟩ => rfl

/-- A vector kept as a column reads, at `(i, 0)`, the vector at `i`. -/
theorem colcast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- On the extended reals the host's accumulating scatter is the exact sum (for any dimension numbers and operands). -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The program's dimension numbers of the scalar segment sum are the segment sum's. -/
theorem dims1_eq : scatter_S100000_S1600000x1_S1600000_n_0_0_1
    = Cert.LibSegment.segDims1 100000 1600000 scatter_S100000_S1600000x1_S1600000_n_0_0_1_wf := rfl

/-- The program's dimension numbers of the row segment sum are the segment sum's. -/
theorem dims2_eq : scatter_S100000x128_S1600000x1_S1600000x128_1_0_0_1
    = Cert.LibSegment.segDims2 100000 1600000 128 scatter_S100000x128_S1600000x1_S1600000x128_1_0_0_1_wf := rfl

/-- The program's dimension numbers of the row gather are the row gather's. -/
theorem gdims_eq : gather_S100000x128_S1600000x1_S1600000x128_1_0_n_n_0_1_1128
    = Cert.LibGather.rowGatherDims 100000 1600000 128 gather_S100000x128_S1600000x1_S1600000x128_1_0_n_n_0_1_1128_wf := rfl

/-! ## The normalisation and the degree -/

/-- `select (d > 0) (rsqrt d) 0` at a node, for any degree array `D`, is `normOf` of the degree there. -/
theorem dinv_aux (D : FVec Ideal S100000 .f32) (j : Fin 100000) :
    select (cmpf .ogt D (broadcastInDim S100000 ![] bcast_S_S100000 (constant (F := Ideal) S_ .f32 0x00000000#32)))
        (Host.rsqrt D)
        (broadcastInDim S100000 ![] bcast_S_S100000 (id (constant (F := Ideal) S_ .f32 0x00000000#32))) (ix1 j)
      = normOf (D (ix1 j)) := by
  rw [select_apply, cmpf_apply, id, splat_apply]
  rfl

/-- The kernel program's normalisation at a node is `normOf` of its degree there. -/
theorem dK_eq (x1 : IVec S2x1600000 32) (j : Fin 100000) : dK x1 j = normOf (degOf x1 (ix1 j)) := by
  unfold dK dinvOf
  exact dinv_aux (degOf x1) j

/-- The segment sum of ones over a target list `col`, plus one, at node `i`. -/
theorem deg_aux (col : IVec S1600000 32) (i : Fin 100000) :
    addf (F := Ideal) (φ := .f32)
        (Host.scatterAdd scatter_S100000_S1600000x1_S1600000_n_0_0_1
          (broadcastInDim S100000 ![] bcast_S_S100000 (constant S_ .f32 0x00000000#32))
          (broadcastInDim S1600000x1 ![0] bcast_S1600000_S1600000x1_0 col)
          (broadcastInDim S1600000 ![] bcast_S_S1600000 (constant S_ .f32 0x3F800000#32)))
        (broadcastInDim S100000 ![] bcast_S_S100000 (constant S_ .f32 0x3F800000#32)) (ix1 i)
      = (Ideal.ofBits .f32 0x00000000#32
          + ∑ e : Fin 1600000, (if (col (ix1 e)).toInt = (i.val : ℤ) then Ideal.ofBits .f32 0x3F800000#32 else 0))
        + Ideal.ofBits .f32 0x3F800000#32 := by
  rw [addf_apply, splat_apply, scatterAdd_ideal, dims1_eq, Cert.LibSegment.scatterAdd_seg1_apply]
  simp only [splat_apply]
  refine congrArg (fun t => Ideal.ofBits .f32 0x00000000#32 + t + Ideal.ofBits .f32 0x3F800000#32)
    (Finset.sum_congr rfl fun e _ => ?_)
  rw [col_apply]

/-- The kernel program's degree at node `i`: the edges into `i` counted, and one more for the self loop. -/
theorem deg_apply (x1 : IVec S2x1600000 32) (i : Fin 100000) :
    degOf x1 (ix1 i)
      = (Ideal.ofBits .f32 0x00000000#32
          + ∑ e : Fin 1600000, (if (x1 (ix2 (1 : Fin 2) e)).toInt = (i.val : ℤ) then Ideal.ofBits .f32 0x3F800000#32 else 0))
        + Ideal.ofBits .f32 0x3F800000#32 := by
  unfold degOf
  refine (deg_aux (colOf x1) i).trans ?_
  simp only [colOf_apply]

/-! ## The gather: a source in range passes the in-bounds test -/

/-- A left fold by `and` from 1 over words that are all 1 is 1. -/
theorem foldl_andi_all_one {ι : Type} (f : ι → BitVec 1) (hf : ∀ n, f n = 1#1) :
    ∀ (l : List ι) (init : BitVec 1), init = 1#1 → l.foldl (fun r n => IntOp.andi r (f n)) init = 1#1
  | [], _, h => h
  | a :: l, _, h => foldl_andi_all_one f hf l _ (IntOp.andi_eq_one.2 ⟨h, hf a⟩)

/-- A reduction by `and` from 1 of an array whose entries are all 1 is 1 everywhere. -/
theorem reduce_andi_all_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_all_one x hx _ _ hinit

/-- The index normalisation `select (w < 0) (w + 100000) w` leaves a non-negative word alone. -/
theorem takeIdx_apply (row : IVec S1600000 32) (e : Fin 1600000) (h0 : 0 ≤ (row (ix1 e)).toInt) :
    HostValue.takeIdx row (ixP e) = row (ix1 e) := by
  unfold HostValue.takeIdx
  rw [col_apply, select_apply, cmpi_at, splatI_apply]
  have hc : IntOp.cmpi .slt (row (ix1 e)) 0#32 = 0#1 := by
    refine eq_zero_of_ne_one fun h => ?_
    rw [IntOp.cmpi_slt, BitVec.toInt_zero] at h
    omega
  rw [hc, select_zero]

/-- A source in `[0, 100000)` passes both bounds of the gather's in-bounds test. -/
theorem inb_apply (row : IVec S1600000 32) (e : Fin 1600000) (h0 : 0 ≤ (row (ix1 e)).toInt)
    (h1 : (row (ix1 e)).toInt < 100000) :
    andi (cmpi .sge (HostValue.takeIdx row) (broadcastInDim S1600000x1 ![] bcast_S_S1600000x1 (constantI S_ 32 0#32)))
        (cmpi .sle (HostValue.takeIdx row)
          (broadcastInDim S1600000x1 ![0, 1] bcast_S1x1_S1600000x1_0_1
            (broadcastInDim S1x1 ![1] bcast_S1_S1x1_1 (constantI S1 32 99999#32)))) (ixP e) = 1#1 := by
  rw [andi_at, cmpi_at, cmpi_at, takeIdx_apply row e h0, splatI_apply, lim_apply]
  refine IntOp.andi_eq_one.2 ⟨IntOp.cmpi_sge.2 ?_, IntOp.cmpi_sle.2 ?_⟩
  · rw [BitVec.toInt_zero]; exact h0
  · have h9 : (99999#32 : BitVec 32).toInt = 99999 := by decide
    rw [h9]; omega

/-- When every source is in range, the in-bounds test, reduced over its size-one axis, holds at every edge. -/
theorem mask_apply (row : IVec S1600000 32) (hrow : ∀ e, 0 ≤ (row (ix1 e)).toInt ∧ (row (ix1 e)).toInt < 100000)
    (e : Fin 1600000) :
    Host.reduce IntOp.andi
        (andi (cmpi .sge (HostValue.takeIdx row) (broadcastInDim S1600000x1 ![] bcast_S_S1600000x1 (constantI S_ 32 0#32)))
          (cmpi .sle (HostValue.takeIdx row)
            (broadcastInDim S1600000x1 ![0, 1] bcast_S1x1_S1600000x1_0_1
              (broadcastInDim S1x1 ![1] bcast_S1_S1x1_1 (constantI S1 32 99999#32)))))
        (constantI S_ 1 1#1) reducesTo_S1600000x1_S1600000_d1 h_S_ (ix1 e) = 1#1 := by
  refine reduce_andi_all_one _ _ _ _ _ rfl fun j => ?_
  obtain ⟨e', rfl⟩ := exists_ixP j
  exact inb_apply row e' (hrow e').1 (hrow e').2

/-- The gathered rows at `(e, l)`, when every source is in range: the table's row at edge `e`'s source node. -/
theorem takeOf_apply (g : FVec Ideal S100000x128 .f32) (row : IVec S1600000 32)
    (hrow : ∀ e, 0 ≤ (row (ix1 e)).toInt ∧ (row (ix1 e)).toInt < 100000) (e : Fin 1600000) (l : Fin 128) :
    takeOf g row (ix2 e l) = g (ix2 (nodeOf (row (ix1 e))) l) := by
  unfold takeOf
  rw [select_apply, rows_apply, mask_apply row hrow e, select_one, gdims_eq,
    Cert.LibGather.gather_rows_apply (by decide)]
  refine congrArg (fun n : Fin 100000 => g (ix2 n l)) (Fin.ext ?_)
  show min (HostValue.takeIdx row (ixP e)).toInt.toNat (100000 - 1) = min (row (ix1 e)).toInt.toNat 99999
  rw [takeIdx_apply row e (hrow e).1]

/-- The neighbour sum at `(i, l)`, when every source is in range. -/
theorem aggOf_apply (g : FVec Ideal S100000x128 .f32) (row col : IVec S1600000 32)
    (hrow : ∀ e, 0 ≤ (row (ix1 e)).toInt ∧ (row (ix1 e)).toInt < 100000) (i : Fin 100000) (l : Fin 128) :
    aggOf g row col (ix2 i l)
      = Ideal.ofBits .f32 0x00000000#32
        + ∑ e : Fin 1600000, (if (col (ix1 e)).toInt = (i.val : ℤ) then g (ix2 (nodeOf (row (ix1 e))) l) else 0) := by
  unfold aggOf
  rw [scatterAdd_ideal, dims2_eq, Cert.LibSegment.scatterAdd_seg2_apply, splat_apply]
  refine congrArg (fun t => Ideal.ofBits .f32 0x00000000#32 + t) (Finset.sum_congr rfl fun e _ => ?_)
  rw [col_apply, takeOf_apply g row hrow]

/-! ## The two dense stages and the result -/

/-- Stage A at `(j, l)`. -/
theorem G0_apply (x : FVec Ideal S100000x256 .f32) (w : S256x128.Idx → EReal) (d : S100000x1.Idx → EReal)
    (j : Fin 100000) (l : Fin 128) : G0 x w d (ix2 j l) = lin x w j l * d (ix2 j (0 : Fin 1)) := rfl

/-- Stage B at `(i, l)`. -/
theorem G1_apply (s g : S100000x128.Idx → EReal) (d : S100000x1.Idx → EReal) (b : S1x128.Idx → EReal)
    (i : Fin 100000) (l : Fin 128) :
    G1 s g d b (ix2 i l) = d (ix2 i (0 : Fin 1)) * (s (ix2 i l) + g (ix2 i l)) + b (ix2 (0 : Fin 1) l) := rfl

/-- Rounding the weights to the narrower format is the identity on the extended reals. -/
theorem lin_truncf (x : FVec Ideal S100000x256 .f32) (w : FVec Ideal S256x128 .f32) (j : Fin 100000) (l : Fin 128) :
    lin x (truncf .bf16 w bitsLt_bf16_f32) j l = lin x w j l := rfl

/-- The program's result as the composition of its named stages. -/
theorem result_eq (x0 : FVec Ideal S100000x256 .f32) (x1 : IVec S2x1600000 32) (x2 : FVec Ideal S256x128 .f32)
    (x3 : FVec Ideal S128 .f32) :
    result x0 x1 x2 x3
      = G1 (aggOf (G0 x0 (truncf .bf16 x2 bitsLt_bf16_f32) (shapeCast S100000x1 (dinvOf x1) shapeCasts_S100000_S100000x1))
            (rowOf x1) (colOf x1))
          (G0 x0 (truncf .bf16 x2 bitsLt_bf16_f32) (shapeCast S100000x1 (dinvOf x1) shapeCasts_S100000_S100000x1))
          (shapeCast S100000x1 (dinvOf x1) shapeCasts_S100000_S100000x1) (shapeCast S1x128 x3 shapeCasts_S128_S1x128) := rfl

/-- The composition at `(i, l)`, for any normalisation array and any source and target lists with the sources in range. -/
theorem result_aux (x0 : FVec Ideal S100000x256 .f32) (x2 : FVec Ideal S256x128 .f32) (x3 : FVec Ideal S128 .f32)
    (dinv : FVec Ideal S100000 .f32) (row col : IVec S1600000 32)
    (hrow : ∀ e, 0 ≤ (row (ix1 e)).toInt ∧ (row (ix1 e)).toInt < 100000) (i : Fin 100000) (l : Fin 128) :
    G1 (aggOf (G0 x0 (truncf .bf16 x2 bitsLt_bf16_f32) (shapeCast S100000x1 dinv shapeCasts_S100000_S100000x1)) row col)
        (G0 x0 (truncf .bf16 x2 bitsLt_bf16_f32) (shapeCast S100000x1 dinv shapeCasts_S100000_S100000x1))
        (shapeCast S100000x1 dinv shapeCasts_S100000_S100000x1) (shapeCast S1x128 x3 shapeCasts_S128_S1x128) (ix2 i l)
      = dinv (ix1 i) * ((Ideal.ofBits .f32 0x00000000#32
            + ∑ e : Fin 1600000, (if (col (ix1 e)).toInt = (i.val : ℤ)
                then lin x0 x2 (nodeOf (row (ix1 e))) l * dinv (ix1 (nodeOf (row (ix1 e)))) else 0))
          + lin x0 x2 i l * dinv (ix1 i))
        + x3 (ix1 l) := by
  rw [G1_apply, aggOf_apply _ row col hrow, colcast_apply, shapeCast_a_1a_apply]
  simp only [G0_apply, colcast_apply, lin_truncf]

/-- The kernel program's result at node `i`, channel `l`, when every edge index is a node number. -/
theorem result_apply (x0 : FVec Ideal S100000x256 .f32) (x1 : IVec S2x1600000 32) (x2 : FVec Ideal S256x128 .f32)
    (x3 : FVec Ideal S128 .f32) (hr : ∀ j, 0 ≤ (x1 j).toInt ∧ (x1 j).toInt < 100000) (i : Fin 100000) (l : Fin 128) :
    result x0 x1 x2 x3 (ix2 i l)
      = dK x1 i * ((Ideal.ofBits .f32 0x00000000#32
            + ∑ e : Fin 1600000, (if (x1 (ix2 (1 : Fin 2) e)).toInt = (i.val : ℤ)
                then lin x0 x2 (nodeOf (x1 (ix2 (0 : Fin 2) e))) l * dK x1 (nodeOf (x1 (ix2 (0 : Fin 2) e))) else 0))
          + lin x0 x2 i l * dK x1 i)
        + x3 (ix1 l) := by
  have hrow : ∀ e, 0 ≤ (rowOf x1 (ix1 e)).toInt ∧ (rowOf x1 (ix1 e)).toInt < 100000 := fun e => by
    rw [rowOf_apply]; exact hr _
  unfold dK
  rw [result_eq, result_aux x0 x2 x3 (dinvOf x1) (rowOf x1) (colOf x1) hrow i l]
  simp only [rowOf_apply, colOf_apply]

end Cert.KernelIdeal.KValue

end
-- ==== Proof.Algebra.lean ====
/-
  The algebra that joins the two programs, over abstract finite index sets.

  `n` nodes, `E` edges; edge `e` goes from node `s e` to node `t e`; every node also has a self loop. With `d` the
  nodes' normalisation and `h` one channel of the transformed features:

  * DEGREES. Counting, into node `i`, the `E` edges and then the `n` self loops (one list of length `E + n`), or
    counting the `E` edges and adding one, give the same number: among the self loops exactly loop `i` lands on `i`.
    Only associativity of `+` is used, so this holds for any extended reals.

  * AGGREGATION. `d i * (∑_{e → i} h (s e) * d (s e) + h i * d i) + b = ∑_{e → i} h (s e) * (d (s e) * d (t e)) + h i * (d i * d i) + b`:
    inside the sum `t e = i`, so the factor `d (t e)` is the same for every term and comes out. Moving a factor across
    a sum is distributivity, which on the extended reals needs finite numbers: the lemma is stated for real `d`, `h`, `b`
    and proved in `ℝ`, the coercion pushed through sums, products and the conditionals.
-/
import Idealize.ShloMosaic.PureOps.Ideal

noncomputable section

open scoped BigOperators

namespace Cert.GcnAlgebra

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A conditional between a real and zero, coerced. -/
theorem ite_coe (p : Prop) [Decidable p] (a : ℝ) : (if p then (a : EReal) else 0) = ((if p then a else 0 : ℝ) : EReal) := by
  split <;> simp

/-- Among the self loops, exactly loop `i` lands on node `i`. -/
theorem sum_loops {α : Type} [AddCommMonoid α] {n : ℕ} (i : Fin n) (f : Fin n → α) :
    ∑ j : Fin n, (if (j.val : ℤ) = (i.val : ℤ) then f j else 0) = f i := by
  have : ∀ j : Fin n, ((j.val : ℤ) = (i.val : ℤ)) ↔ j = i := fun j => by
    rw [Nat.cast_inj, Fin.val_inj]
  simp only [this, Finset.sum_ite_eq', Finset.mem_univ, if_true]

/-- DEGREES: the edges then the self loops, counted into node `i`, are the edges counted into `i` and one more. -/
theorem deg_eq {n E : ℕ} (z one : EReal) (cI : Fin E → ℤ) (cR : Fin (E + n) → ℤ) (i : Fin n)
    (hL : ∀ e, cR (Fin.castAdd n e) = cI e) (hR : ∀ j : Fin n, cR (Fin.natAdd E j) = (j.val : ℤ)) :
    z + ∑ k : Fin (E + n), (if cR k = (i.val : ℤ) then one else 0)
      = (z + ∑ e : Fin E, (if cI e = (i.val : ℤ) then one else 0)) + one := by
  rw [Fin.sum_univ_add]
  simp only [hL, hR]
  rw [sum_loops i (fun _ => one), add_assoc]

/-- AGGREGATION over the reals. -/
theorem core_real {n E : ℕ} (d h : Fin n → ℝ) (b : ℝ) (s t : Fin E → Fin n) (cI : Fin E → ℤ)
    (hc : ∀ e, cI e = ((t e).val : ℤ)) (i : Fin n) :
    d i * ((∑ e : Fin E, (if cI e = (i.val : ℤ) then h (s e) * d (s e) else 0)) + h i * d i) + b
      = ((∑ e : Fin E, (if cI e = (i.val : ℤ) then h (s e) * (d (s e) * d (t e)) else 0))
          + ∑ j : Fin n, (if (j.val : ℤ) = (i.val : ℤ) then h j * (d j * d j) else 0)) + b := by
  rw [sum_loops i (fun j => h j * (d j * d j)), mul_add, Finset.mul_sum]
  congr 1
  congr 1
  · refine Finset.sum_congr rfl fun e _ => ?_
    by_cases hh : cI e = (i.val : ℤ)
    · have ht : t e = i := Fin.ext (by have := hc e; omega)
      rw [if_pos hh, if_pos hh, ht]; ring
    · rw [if_neg hh, if_neg hh, mul_zero]
  · ring

/-- AGGREGATION on the extended reals, for finite data. -/
theorem core {n E : ℕ} (d h : Fin n → ℝ) (b : ℝ) (s t : Fin E → Fin n) (cI : Fin E → ℤ)
    (hc : ∀ e, cI e = ((t e).val : ℤ)) (i : Fin n) :
    (d i : EReal) * ((0 + ∑ e : Fin E, (if cI e = (i.val : ℤ) then (h (s e) : EReal) * (d (s e) : EReal) else 0))
        + (h i : EReal) * (d i : EReal)) + (b : EReal)
      = (0 + ((∑ e : Fin E, (if cI e = (i.val : ℤ) then (h (s e) : EReal) * ((d (s e) : EReal) * (d (t e) : EReal)) else 0))
          + ∑ j : Fin n, (if (j.val : ℤ) = (i.val : ℤ) then (h j : EReal) * ((d j : EReal) * (d j : EReal)) else 0))) + (b : EReal) := by
  simp only [← EReal.coe_mul, ite_coe, ← coe_sum, zero_add, ← EReal.coe_add]
  exact congrArg _ (core_real d h b s t cI hc i)

end Cert.GcnAlgebra

end
-- ==== Proof.RefSide.lean ====
/-
  The reference program, read at an index.

  Its degree at node `i` counts, among the `1600000` edges followed by the `100000` self loops, those whose target is
  `i`: the edges into `i`, and loop `i`. Its result at node `i`, channel `l`, sums over the same list the message
  `lin x w (source) l * (d (source) * d (target))`, and adds the bias: the edges into `i`, then loop `i` with
  source and target both `i`. `d` is the reference's own normalisation (`dR`).
-/
import proofs.«421425_j4363686773057_3_alg».proof.Proof.RefRead
import proofs.«421425_j4363686773057_3_alg».proof.Proof.Nodes
import proofs.«421425_j4363686773057_3_alg».proof.Proof.LibSegment
import proofs.«421425_j4363686773057_3_alg».proof.Proof.LibGather
import proofs.«421425_j4363686773057_3_alg».proof.Proof.Algebra
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.ReadP Cert.Gcn
open Idealize.ShloMosaic Idealize.ShloMosaic.ValueIdx Idealize.ShloMosaic.StableHlo.Predicate

/-- The reference's normalisation at node `j`. -/
abbrev dR (x1 : (⟨S2x1600000, .i32⟩ : BufTy).Contents (Elt Ideal)) (j : Fin 100000) : EReal :=
  val_main_v14 (F := Ideal) x1 (ix1 j)

/-- The reference's normalisation at a node is `normOf` of its degree there. -/
theorem dR_eq (x1 : (⟨S2x1600000, .i32⟩ : BufTy).Contents (Elt Ideal)) (j : Fin 100000) :
    dR x1 j = normOf (val_main_v10 (F := Ideal) x1 (ix1 j)) := by
  show val_main_v14 (F := Ideal) x1 (ix1 j) = _
  rw [val_main_v14_apply, val_main_v12_apply, val_main_v13_apply, val_main_call0_v1_apply, val_main_call0_v0_apply,
    val_main_cst_2_apply, val_main_v11_apply, val_main_cst_1_apply, Ideal.cmpf_def, Ideal.hostUnary_rsqrt_def,
    Ideal.ofBits_def]
  rfl

/-- The two spellings of a rank-1 index agree. -/
theorem ix1_eq_ofFin {n : Nat} (k : Fin n) : (ix1 k : (⟨1, ![n]⟩ : Shape).Idx) = Shape.Idx.ofFin k := by
  funext a
  match a with
  | ⟨0, _⟩ => exact Fin.ext rfl

/-! ## The two index lists: the edges' row of `x1`, then the node numbers -/

/-- Row 0 of the edge-index array (the sources), flattened, at edge `e`. -/
theorem row0_apply (x1 : (⟨S2x1600000, .i32⟩ : BufTy).Contents (Elt Ideal)) (e : Fin 1600000) :
    val_main_v2 (F := Ideal) x1 (ix1 e) = x1 (ix2 (0 : Fin 2) e) := by
  rw [val_main_v2_apply, val_main_v1_apply]
  congr 1
  funext a
  match a with
  | ⟨0, _⟩ => exact Fin.ext rfl
  | ⟨1, _⟩ => exact Fin.ext (Nat.mod_eq_of_lt e.isLt)

/-- Row 1 of the edge-index array (the targets), flattened, at edge `e`. -/
theorem row1_apply (x1 : (⟨S2x1600000, .i32⟩ : BufTy).Contents (Elt Ideal)) (e : Fin 1600000) :
    val_main_v5 (F := Ideal) x1 (ix1 e) = x1 (ix2 (1 : Fin 2) e) := by
  rw [val_main_v5_apply, val_main_v4_apply]
  congr 1
  funext a
  match a with
  | ⟨0, _⟩ => exact Fin.ext rfl
  | ⟨1, _⟩ => exact Fin.ext (Nat.mod_eq_of_lt e.isLt)

/-- The source list at an edge is the edge's source word. -/
theorem src_edge (x1 : (⟨S2x1600000, .i32⟩ : BufTy).Contents (Elt Ideal)) (e : Fin 1600000) :
    val_main_v3 (F := Ideal) x1 (ix1 (Fin.castAdd 100000 e)) = x1 (ix2 (0 : Fin 2) e) := by
  unfold val_main_v3
  refine (concatenate_pair_apply_left (0 : Fin S1700000.rank) (val_main_v2 (F := Ideal) x1) (val_main_v0 (F := Ideal))
    concatenates_S1600000_S100000_S1700000_d0 (ix1 (Fin.castAdd 100000 e)) rfl (ix1 e) ?_).trans (row0_apply x1 e)
  intro b
  match b with
  | ⟨0, _⟩ => rfl

/-- The source list at a self loop is the node's number. -/
theorem src_loop (x1 : (⟨S2x1600000, .i32⟩ : BufTy).Contents (Elt Ideal)) (j : Fin 100000) :
    val_main_v3 (F := Ideal) x1 (ix1 (Fin.natAdd 1600000 j)) = BitVec.ofNat 32 j.val := by
  unfold val_main_v3
  refine (concatenate_pair_apply_right (0 : Fin S1700000.rank) (val_main_v2 (F := Ideal) x1) (val_main_v0 (F := Ideal))
    concatenates_S1600000_S100000_S1700000_d0 (ix1 (Fin.natAdd 1600000 j)) rfl rfl (ix1 j) ?_ ?_).trans (val_main_v0_apply (ix1 j))
  · intro b hb
    match b with
    | ⟨0, _⟩ => exact absurd rfl hb
  · show j.val + 1600000 = 1600000 + j.val
    omega

/-- The target list at an edge is the edge's target word. -/
theorem tgt_edge (x1 : (⟨S2x1600000, .i32⟩ : BufTy).Contents (Elt Ideal)) (e : Fin 1600000) :
    val_main_v6 (F := Ideal) x1 (ix1 (Fin.castAdd 100000 e)) = x1 (ix2 (1 : Fin 2) e) := by
  unfold val_main_v6
  refine (concatenate_pair_apply_left (0 : Fin S1700000.rank) (val_main_v5 (F := Ideal) x1) (val_main_v0 (F := Ideal))
    concatenates_S1600000_S100000_S1700000_d0 (ix1 (Fin.castAdd 100000 e)) rfl (ix1 e) ?_).trans (row1_apply x1 e)
  intro b
  match b with
  | ⟨0, _⟩ => rfl

/-- The target list at a self loop is the node's number. -/
theorem tgt_loop (x1 : (⟨S2x1600000, .i32⟩ : BufTy).Contents (Elt Ideal)) (j : Fin 100000) :
    val_main_v6 (F := Ideal) x1 (ix1 (Fin.natAdd 1600000 j)) = BitVec.ofNat 32 j.val := by
  unfold val_main_v6
  refine (concatenate_pair_apply_right (0 : Fin S1700000.rank) (val_main_v5 (F := Ideal) x1) (val_main_v0 (F := Ideal))
    concatenates_S1600000_S100000_S1700000_d0 (ix1 (Fin.natAdd 1600000 j)) rfl rfl (ix1 j) ?_ ?_).trans (val_main_v0_apply (ix1 j))
  · intro b hb
    match b with
    | ⟨0, _⟩ => exact absurd rfl hb
  · show j.val + 1600000 = 1600000 + j.val
    omega

/-- On the extended reals the host's accumulating scatter is the exact sum (for any dimension numbers and operands). -/
theorem scatterAdd_ideal {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The program's dimension numbers of the scalar segment sum are the segment sum's. -/
theorem dims1_eq : scatter_S100000_S1700000x1_S1700000_n_0_0_1
    = Cert.LibSegment.segDims1 100000 (1600000 + 100000) scatter_S100000_S1700000x1_S1700000_n_0_0_1_wf := rfl

/-- The scatters' index column at list position `k` is the target list there. -/
theorem col9_apply (x1 : (⟨S2x1600000, .i32⟩ : BufTy).Contents (Elt Ideal)) (k : Fin (1600000 + 100000)) :
    val_main_v9 (F := Ideal) x1 (ixP k) = val_main_v6 (F := Ideal) x1 (ix1 k) := by
  rw [val_main_v9_apply]
  congr 1
  funext a
  match a with
  | ⟨0, _⟩ => rfl

/-- The degree as a segment sum over the whole list. -/
theorem deg_seg (x1 : (⟨S2x1600000, .i32⟩ : BufTy).Contents (Elt Ideal)) (i : Fin 100000) :
    val_main_v10 (F := Ideal) x1 (ix1 i)
      = val_main_v8 (F := Ideal) (ix1 i) + ∑ k : Fin (1600000 + 100000),
          (if (val_main_v9 (F := Ideal) x1 (ixP k)).toInt = (i.val : ℤ)
            then val_main_v7 (F := Ideal) (ix1 k) else 0) := by
  unfold val_main_v10
  rw [scatterAdd_ideal, dims1_eq]
  exact Cert.LibSegment.scatterAdd_seg1_apply _ _ _ _ i

/-- The reference's degree at node `i`: the edges into `i` counted, and one more for loop `i`. -/
theorem deg_apply (x1 : (⟨S2x1600000, .i32⟩ : BufTy).Contents (Elt Ideal)) (i : Fin 100000) :
    val_main_v10 (F := Ideal) x1 (ix1 i)
      = (Ideal.ofBits .f32 0x00000000#32
          + ∑ e : Fin 1600000, (if (x1 (ix2 (1 : Fin 2) e)).toInt = (i.val : ℤ) then Ideal.ofBits .f32 0x3F800000#32 else 0))
        + Ideal.ofBits .f32 0x3F800000#32 := by
  have hz : val_main_v8 (F := Ideal) (ix1 i) = Ideal.ofBits .f32 0x00000000#32 := by
    rw [val_main_v8_apply, val_main_cst_0_apply, Ideal.ofBits_def]
  have hone : ∀ k : Fin (1600000 + 100000), val_main_v7 (F := Ideal) (ix1 k) = Ideal.ofBits .f32 0x3F800000#32 := fun k => by
    rw [val_main_v7_apply, val_main_cst_apply, Ideal.ofBits_def]
  rw [deg_seg, hz]
  simp only [hone]
  refine Cert.GcnAlgebra.deg_eq (n := 100000) (E := 1600000) _ _ (fun e => (x1 (ix2 (1 : Fin 2) e)).toInt)
    (fun k => (val_main_v9 (F := Ideal) x1 (ixP k)).toInt) i ?_ ?_
  · intro e
    show (val_main_v9 (F := Ideal) x1 (ixP (Fin.castAdd 100000 e))).toInt = _
    rw [col9_apply, tgt_edge]
  · intro j
    show (val_main_v9 (F := Ideal) x1 (ixP (Fin.natAdd 1600000 j))).toInt = _
    rw [col9_apply, tgt_loop]
    exact toInt_ofNat_small j.val (by have := j.isLt; omega)

/-! ## The gathers' index columns: the normalisation `select (w < 0) (w + 100000) w` of a node number is itself -/

/-- The index normalisation leaves a non-negative word alone. -/
theorem norm_of_nonneg (w : BitVec 32) (h : 0 ≤ w.toInt) :
    Scalar.select (IntOp.cmpi .slt w 0#32) (IntOp.addi w 100000#32) w = w := by
  have hs : w.slt 0#32 = false := by
    simp only [BitVec.slt, BitVec.toInt_zero, decide_eq_false_iff_not, not_lt]
    exact h
  have hc : IntOp.cmpi .slt w 0#32 = 0#1 := by
    show BitVec.ofBool (w.slt 0#32) = 0#1
    rw [hs]; rfl
  rw [hc, select_zero]

/-- The first normalised source column. -/
theorem col20_apply (x1 : (⟨S2x1600000, .i32⟩ : BufTy).Contents (Elt Ideal)) (k : Fin (1600000 + 100000))
    (h : 0 ≤ (val_main_v3 (F := Ideal) x1 (ix1 k)).toInt) :
    val_main_v20 (F := Ideal) x1 (ixP k) = val_main_v3 (F := Ideal) x1 (ix1 k) := by
  have e : idx_main_v20 (ixP k) = ix1 k := by
    funext a
    match a with
    | ⟨0, _⟩ => rfl
  rw [val_main_v20_apply, e, val_main_v19_apply, val_main_v16_apply, val_main_v18_apply, val_main_v15_apply,
    val_main_c_apply, val_main_v17_apply, val_main_c_3_apply]
  exact norm_of_nonneg _ h

/-- The normalised target column. -/
theorem col27_apply (x1 : (⟨S2x1600000, .i32⟩ : BufTy).Contents (Elt Ideal)) (k : Fin (1600000 + 100000))
    (h : 0 ≤ (val_main_v6 (F := Ideal) x1 (ix1 k)).toInt) :
    val_main_v27 (F := Ideal) x1 (ixP k) = val_main_v6 (F := Ideal) x1 (ix1 k) := by
  have e : idx_main_v27 (ixP k) = ix1 k := by
    funext a
    match a with
    | ⟨0, _⟩ => rfl
  rw [val_main_v27_apply, e, val_main_v26_apply, val_main_v23_apply, val_main_v25_apply, val_main_v22_apply,
    val_main_c_4_apply, val_main_v24_apply, val_main_c_5_apply]
  exact norm_of_nonneg _ h

/-- The second normalised source column. -/
theorem col36_apply (x1 : (⟨S2x1600000, .i32⟩ : BufTy).Contents (Elt Ideal)) (k : Fin (1600000 + 100000))
    (h : 0 ≤ (val_main_v3 (F := Ideal) x1 (ix1 k)).toInt) :
    val_main_v36 (F := Ideal) x1 (ixP k) = val_main_v3 (F := Ideal) x1 (ix1 k) := by
  have e : idx_main_v36 (ixP k) = ix1 k := by
    funext a
    match a with
    | ⟨0, _⟩ => rfl
  rw [val_main_v36_apply, e, val_main_v35_apply, val_main_v32_apply, val_main_v34_apply, val_main_v31_apply,
    val_main_c_6_apply, val_main_v33_apply, val_main_c_7_apply]
  exact norm_of_nonneg _ h

/-! ## The gathers -/

/-- The normalisation gathered at list position `k`: the normalisation of the node the index word names. -/
theorem take_apply (x1 : (⟨S2x1600000, .i32⟩ : BufTy).Contents (Elt Ideal)) (idx : IVec S1700000x1 32)
    (k : Fin (1600000 + 100000)) :
    Host.gather gather_S100000_S1700000x1_S1700000_n_0_n_n_0_1_1 (val_main_v14 (F := Ideal) x1) idx (ix1 k)
      = dR x1 (nodeOf (idx (ixP k))) := by
  rw [ix1_eq_ofFin]
  refine (gather_take gather_S100000_S1700000x1_S1700000_n_0_n_n_0_1_1 rfl rfl rfl rfl (val_main_v14 (F := Ideal) x1) idx k
    (by decide)).trans ?_
  refine congrArg (val_main_v14 (F := Ideal) x1) ?_
  rw [ix1_eq_ofFin]
  rfl

/-- One channel of the dense product at a node. -/
theorem lin_apply (x0 : (⟨S100000x256, .f32⟩ : BufTy).Contents (Elt Ideal)) (x2 : (⟨S256x128, .f32⟩ : BufTy).Contents (Elt Ideal))
    (j : Fin 100000) (l : Fin 128) :
    val_main_v30 (F := Ideal) x0 x2 (ix2 j l) = lin x0 x2 j l := by
  rw [val_main_v30_apply]
  unfold lin
  refine Finset.sum_congr rfl fun k _ => ?_
  have el : lidx_main_v30 (ix2 j l) k = ix2 j k :=
    funext fun a => Fin.ext (by match a with | ⟨0, _⟩ => rfl | ⟨1, _⟩ => rfl)
  have er : ridx_main_v30 (ix2 j l) k = ix2 k l :=
    funext fun a => Fin.ext (by match a with | ⟨0, _⟩ => rfl | ⟨1, _⟩ => rfl)
  rw [el, er]

/-- The program's dimension numbers of the row gather are the row gather's. -/
theorem gdims_eq : gather_S100000x128_S1700000x1_S1700000x128_1_0_n_n_0_1_1128
    = Cert.LibGather.rowGatherDims 100000 (1600000 + 100000) 128 gather_S100000x128_S1700000x1_S1700000x128_1_0_n_n_0_1_1128_wf := rfl

/-- The dense product's rows gathered at list position `k`: the row of the node the index word names. -/
theorem rows_apply (x0 : (⟨S100000x256, .f32⟩ : BufTy).Contents (Elt Ideal)) (x2 : (⟨S256x128, .f32⟩ : BufTy).Contents (Elt Ideal))
    (idx : IVec S1700000x1 32) (k : Fin (1600000 + 100000)) (l : Fin 128) :
    Host.gather gather_S100000x128_S1700000x1_S1700000x128_1_0_n_n_0_1_1128 (val_main_v30 (F := Ideal) x0 x2) idx (ix2 k l)
      = lin x0 x2 (nodeOf (idx (ixP k))) l := by
  rw [gdims_eq]
  refine (Cert.LibGather.gather_rows_apply (by decide) _ (val_main_v30 (F := Ideal) x0 x2) idx k l).trans ?_
  exact lin_apply x0 x2 (nodeOf (idx (ixP k))) l

/-! ## The message of list position `k`, and the aggregation -/

/-- The message list position `k` sends on channel `l`: the source's transformed features, scaled by the
    normalisations of the source and of the target. -/
theorem msg_apply (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (k : Fin (1600000 + 100000)) (l : Fin 128)
    (hs : 0 ≤ (val_main_v3 (F := Ideal) x1 (ix1 k)).toInt) (ht : 0 ≤ (val_main_v6 (F := Ideal) x1 (ix1 k)).toInt) :
    val_main_v40 (F := Ideal) x0 x1 x2 (ix2 k l)
      = lin x0 x2 (nodeOf (val_main_v3 (F := Ideal) x1 (ix1 k))) l
        * (dR x1 (nodeOf (val_main_v3 (F := Ideal) x1 (ix1 k))) * dR x1 (nodeOf (val_main_v6 (F := Ideal) x1 (ix1 k)))) := by
  have e39 : idx_main_v38 (idx_main_v39 (ix2 k l)) = ix1 k := by
    funext a
    match a with
    | ⟨0, _⟩ => rfl
  rw [val_main_v40_apply, Ideal.mulf_def, val_main_v39_apply, val_main_v38_apply, e39, val_main_v29_apply, Ideal.mulf_def]
  unfold val_main_v37 val_main_v21 val_main_v28
  rw [rows_apply, take_apply, take_apply, col36_apply x1 k hs, col20_apply x1 k hs, col27_apply x1 k ht]

/-- The program's dimension numbers of the row segment sum are the segment sum's. -/
theorem dims2_eq : scatter_S100000x128_S1700000x1_S1700000x128_1_0_0_1
    = Cert.LibSegment.segDims2 100000 (1600000 + 100000) 128 scatter_S100000x128_S1700000x1_S1700000x128_1_0_0_1_wf := rfl

/-- The aggregation's index column at list position `k` is the target list there. -/
theorem col42_apply (x1 : (⟨S2x1600000, .i32⟩ : BufTy).Contents (Elt Ideal)) (k : Fin (1600000 + 100000)) :
    val_main_v42 (F := Ideal) x1 (ixP k) = val_main_v6 (F := Ideal) x1 (ix1 k) := by
  rw [val_main_v42_apply]
  congr 1
  funext a
  match a with
  | ⟨0, _⟩ => rfl

/-- The aggregation as a segment sum over the whole list. -/
theorem agg_seg (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (i : Fin 100000) (l : Fin 128) :
    val_main_v43 (F := Ideal) x0 x1 x2 (ix2 i l)
      = val_main_v41 (F := Ideal) (ix2 i l) + ∑ k : Fin (1600000 + 100000),
          (if (val_main_v42 (F := Ideal) x1 (ixP k)).toInt = (i.val : ℤ) then val_main_v40 (F := Ideal) x0 x1 x2 (ix2 k l) else 0) := by
  unfold val_main_v43
  rw [scatterAdd_ideal, dims2_eq]
  exact Cert.LibSegment.scatterAdd_seg2_apply _ _ _ _ i l

/-- A node's own number, as an index word, names the node. -/
theorem nodeOf_ofNat (j : Fin 100000) : nodeOf (BitVec.ofNat 32 j.val) = j := by
  refine Fin.ext ?_
  show min (BitVec.ofNat 32 j.val).toInt.toNat 99999 = j.val
  rw [toInt_ofNat_small j.val (by have := j.isLt; omega)]
  have := j.isLt
  omega

/-- The reference's result at node `i`, channel `l`, when every edge index is a node number. -/
theorem result_apply (x0 : (⟨S100000x256, .f32⟩ : BufTy).Contents (Elt Ideal)) (x1 : (⟨S2x1600000, .i32⟩ : BufTy).Contents (Elt Ideal))
    (x2 : (⟨S256x128, .f32⟩ : BufTy).Contents (Elt Ideal)) (x3 : (⟨S128, .f32⟩ : BufTy).Contents (Elt Ideal))
    (hr : ∀ j, 0 ≤ (x1 j).toInt ∧ (x1 j).toInt < 100000) (i : Fin 100000) (l : Fin 128) :
    val_main_v46 (F := Ideal) x0 x1 x2 x3 (ix2 i l)
      = (Ideal.ofBits .f32 0x00000000#32
          + ((∑ e : Fin 1600000, (if (x1 (ix2 (1 : Fin 2) e)).toInt = (i.val : ℤ)
                then lin x0 x2 (nodeOf (x1 (ix2 (0 : Fin 2) e))) l
                  * (dR x1 (nodeOf (x1 (ix2 (0 : Fin 2) e))) * dR x1 (nodeOf (x1 (ix2 (1 : Fin 2) e)))) else 0))
            + ∑ j : Fin 100000, (if (j.val : ℤ) = (i.val : ℤ) then lin x0 x2 j l * (dR x1 j * dR x1 j) else 0)))
        + x3 (ix1 l) := by
  have hz : val_main_v41 (F := Ideal) (ix2 i l) = Ideal.ofBits .f32 0x00000000#32 := by
    rw [val_main_v41_apply, val_main_cst_8_apply, Ideal.ofBits_def]
  have hb : val_main_v45 (F := Ideal) x3 (ix2 i l) = x3 (ix1 l) := by
    rw [val_main_v45_apply, val_main_v44_apply]
    congr 1
    funext a
    match a with
    | ⟨0, _⟩ => rfl
  rw [val_main_v46_apply, Ideal.addf_def, hb, agg_seg, hz, Fin.sum_univ_add]
  refine congrArg (fun t => Ideal.ofBits .f32 0x00000000#32 + t + x3 (ix1 l))
    (congrArg₂ (· + ·) (Finset.sum_congr rfl fun e _ => ?_) (Finset.sum_congr rfl fun j _ => ?_))
  · -- an edge: both index words are node numbers
    have hs : 0 ≤ (val_main_v3 (F := Ideal) x1 (ix1 (Fin.castAdd 100000 e))).toInt := by
      rw [src_edge]; exact (hr _).1
    have ht : 0 ≤ (val_main_v6 (F := Ideal) x1 (ix1 (Fin.castAdd 100000 e))).toInt := by
      rw [tgt_edge]; exact (hr _).1
    rw [col42_apply, tgt_edge, msg_apply x0 x1 x2 (Fin.castAdd 100000 e) l hs ht, src_edge, tgt_edge]
  · -- a self loop: source and target are the node itself
    have hj : j.val < 2 ^ 31 := by have := j.isLt; omega
    have hs : 0 ≤ (val_main_v3 (F := Ideal) x1 (ix1 (Fin.natAdd 1600000 j))).toInt := by
      rw [src_loop, toInt_ofNat_small j.val hj]; exact Int.natCast_nonneg _
    have ht : 0 ≤ (val_main_v6 (F := Ideal) x1 (ix1 (Fin.natAdd 1600000 j))).toInt := by
      rw [tgt_loop, toInt_ofNat_small j.val hj]; exact Int.natCast_nonneg _
    rw [col42_apply, tgt_loop, msg_apply x0 x1 x2 (Fin.natAdd 1600000 j) l hs ht, src_loop, tgt_loop,
      toInt_ofNat_small j.val hj, nodeOf_ofNat]

end Cert.ReferenceIdeal.RefValue

end
-- ==== Proof.Bridge.lean ====
/-
  The two programs compute one function.

  Both normalisations are `normOf` of the same degree (the edges into the node counted, plus one), so they agree; and
  `normOf` of anything is a real number. With the float inputs finite, every factor in sight is then real: the
  linear transform `lin x w j l` is a finite sum of products of reals, the normalisations are real, the bias is real.
  At node `i`, channel `l`, the kernel's `d i * (∑_{e → i} lin (s e) * d (s e) + lin i * d i) + b` and the reference's
  `∑_{e → i} lin (s e) * (d (s e) * d (t e)) + lin i * (d i * d i) + b` are joined by the aggregation identity
  (`Cert.GcnAlgebra.core`): inside the sum the target is `i`, so its normalisation comes out of the sum, which is
  distributivity over finite numbers.
-/
import proofs.«421425_j4363686773057_3_alg».proof.Proof.KSide
import proofs.«421425_j4363686773057_3_alg».proof.Proof.RefSide
import proofs.«421425_j4363686773057_3_alg».proof.Proof.Algebra
import proofs.«421425_j4363686773057_3_alg».proof.Proof.Nodes
import Idealize.ShloMosaic.PureOps.Ideal.Laws
import Idealize.ShloMosaic.Lib.ValueIdx

noncomputable section

open scoped BigOperators

namespace Cert.Bridge

open Cert.Gcn Idealize.ShloMosaic Idealize.ShloMosaic.ValueIdx

/-- The normalisation of any degree is a real number: a positive real degree gives `1/√d`, an infinite one `0`, and
    a degree that is not positive (or is `-∞`) selects the zero branch. -/
theorem normOf_real (d : EReal) : ∃ r : ℝ, normOf d = (r : EReal) := by
  unfold normOf
  rw [Ideal.ofBits_zero_f32]
  by_cases h : (0 : EReal) < d
  · have hc : Ideal.cmp .ogt d 0 = 1#1 := by simp [Ideal.cmp, h]
    rw [hc, select_one]
    induction d using EReal.rec with
    | bot => exact absurd h (by simp)
    | top => exact ⟨0, by rw [EReal.coe_zero]; rfl⟩
    | coe r =>
      have hr : 0 < r := by exact_mod_cast h
      have e : Ideal.rsqrt (r : EReal) = if r < 0 then ⊥ else if r = 0 then ⊤ else (((Real.sqrt r)⁻¹ : ℝ) : EReal) := rfl
      exact ⟨(Real.sqrt r)⁻¹, by rw [e, if_neg (not_lt.2 hr.le), if_neg hr.ne']⟩
  · have hc : Ideal.cmp .ogt d 0 = 0#1 := by simp [Ideal.cmp, h]
    rw [hc, select_zero]
    exact ⟨0, by simp⟩

/-- The two programs' normalisations agree at every node: each is `normOf` of the same degree. -/
theorem norm_eq (x1 : IVec Cert.KernelIdeal.S2x1600000 32) (j : Fin 100000) :
    Cert.KernelIdeal.KValue.dK x1 j = Cert.ReferenceIdeal.RefValue.dR x1 j := by
  rw [Cert.KernelIdeal.KValue.dK_eq, Cert.ReferenceIdeal.RefValue.dR_eq, Cert.KernelIdeal.KValue.deg_apply,
    Cert.ReferenceIdeal.RefValue.deg_apply]

/-- One channel of the linear transform of finite inputs is a real number. -/
theorem lin_real (x0 : (⟨2, ![100000, 256]⟩ : Shape).Idx → EReal) (x2 : (⟨2, ![256, 128]⟩ : Shape).Idx → EReal)
    (a : (⟨2, ![100000, 256]⟩ : Shape).Idx → ℝ) (w : (⟨2, ![256, 128]⟩ : Shape).Idx → ℝ)
    (ha : ∀ i, x0 i = (a i : EReal)) (hw : ∀ i, x2 i = (w i : EReal)) (j : Fin 100000) (l : Fin 128) :
    lin x0 x2 j l = ((∑ k : Fin 256, a (ix2 j k) * w (ix2 k l) : ℝ) : EReal) := by
  unfold lin
  rw [Cert.GcnAlgebra.coe_sum]
  refine Finset.sum_congr rfl fun k _ => ?_
  rw [ha, hw, EReal.coe_mul]

/-- THE BRIDGE: for finite float inputs and edge indices that are node numbers, the kernel program's result term and
    the reference's are the same array. -/
theorem result_eq (x0 : FVec Ideal Cert.KernelIdeal.S100000x256 .f32) (x1 : IVec Cert.KernelIdeal.S2x1600000 32)
    (x2 : FVec Ideal Cert.KernelIdeal.S256x128 .f32) (x3 : FVec Ideal Cert.KernelIdeal.S128 .f32)
    (hx0 : ∀ i, ∃ r : ℝ, x0 i = (r : EReal)) (hx2 : ∀ i, ∃ r : ℝ, x2 i = (r : EReal)) (hx3 : ∀ i, ∃ r : ℝ, x3 i = (r : EReal))
    (hr : ∀ j, 0 ≤ (x1 j).toInt ∧ (x1 j).toInt < 100000) :
    Cert.KernelIdeal.HostValue.result x0 x1 x2 x3 = Cert.ReferenceIdeal.ReadP.val_main_v46 (F := Ideal) x0 x1 x2 x3 := by
  funext j
  obtain ⟨i, l, rfl⟩ : ∃ (i : Fin 100000) (l : Fin 128), j = ix2 i l := ⟨j 0, j 1, eq_ix2 j⟩
  rw [Cert.KernelIdeal.KValue.result_apply x0 x1 x2 x3 hr i l, Cert.ReferenceIdeal.RefValue.result_apply x0 x1 x2 x3 hr i l]
  have hD : ∀ n : Fin 100000, ∃ r : ℝ, Cert.ReferenceIdeal.RefValue.dR x1 n = (r : EReal) := fun n => by
    rw [Cert.ReferenceIdeal.RefValue.dR_eq]; exact normOf_real _
  choose d hd using hD
  choose a ha using hx0
  choose w hw using hx2
  obtain ⟨b, hb⟩ := hx3 (ix1 l)
  simp only [norm_eq, hd, lin_real x0 x2 a w ha hw, hb, Ideal.ofBits_zero_f32]
  exact Cert.GcnAlgebra.core d (fun n => ∑ k : Fin 256, a (ix2 n k) * w (ix2 k l)) b
    (fun e => nodeOf (x1 (ix2 (0 : Fin 2) e))) (fun e => nodeOf (x1 (ix2 (1 : Fin 2) e)))
    (fun e => (x1 (ix2 (1 : Fin 2) e)).toInt) (fun e => (nodeOf_val (hr _).1 (hr _).2).symm) i

end Cert.Bridge

end
-- ==== Proof.lean ====
/-
  A graph convolution with self loops and symmetric normalisation, `out = D^{-1/2} (A + I) D^{-1/2} (x W) + b`, computed two ways.

  The reference lists the `E` edges followed by `n` self loops, takes the degree `deg i` as the number of list entries
  whose target is `i`, the normalisation `d = 1/√deg` (zero where the degree is not positive), and sums over the
  list, by target, the messages `(x W)[source] * (d[source] * d[target])`; then adds the bias.
  The kernel never builds the list: its degree is the number of edges into `i` plus one; its first launch computes
  the scaled rows `g j = (x W)[j] * d[j]`; the host gathers `g` at the edges' sources and sums by target into `s`;
  its second launch returns `d[i] * (s[i] + g[i]) + b`: the self loop's message is the node's own row `g[i]`, and
  the target's factor `d[i]`, the same for every edge into `i`, is applied once, after the sum.

  On the extended reals the two agree when the float inputs are finite and every edge index is a node number in
  `[0, n)` (the precondition): the degrees agree by associativity of `+` alone; the normalisation of any degree is a
  real number; and taking the target's factor out of the sum is distributivity over finite numbers
  (Proof/Algebra.lean, Proof/Bridge.lean). An edge index outside `[0, n)` is read differently by the two gathers (a
  fill value against the nearest row), which is why the precondition names the range.

  The kernel's run with its result buffer named is Proof/KRun.lean; each launch read as a whole-array function is
  Proof/Region0.lean and Proof/Region1.lean; the host operations between them are Proof/KHost.lean; both programs read at
  an index are Proof/KSide.lean and Proof/RefSide.lean, over the segment-sum and row-gather lemmas of Proof/LibSegment.lean
  and Proof/LibGather.lean; the precondition element by element is Proof/PreDecode.lean.
-/
import proofs.«421425_j4363686773057_3_alg».proof.Defs
import proofs.«421425_j4363686773057_3_alg».proof.Proof.Gen.Kernel
import proofs.«421425_j4363686773057_3_alg».proof.Proof.Gen.Kernel.Skeleton
import proofs.«421425_j4363686773057_3_alg».proof.Proof.Gen.Kernel.Launch
import proofs.«421425_j4363686773057_3_alg».proof.Proof.Gen.Kernel.Points
import proofs.«421425_j4363686773057_3_alg».proof.Proof.Gen.Kernel.Frame
import proofs.«421425_j4363686773057_3_alg».proof.Proof.Gen.KernelIdeal
import proofs.«421425_j4363686773057_3_alg».proof.Proof.Gen.KernelIdeal.Skeleton
import proofs.«421425_j4363686773057_3_alg».proof.Proof.Gen.KernelIdeal.Launch
import proofs.«421425_j4363686773057_3_alg».proof.Proof.Gen.KernelIdeal.Points
import proofs.«421425_j4363686773057_3_alg».proof.Proof.Gen.KernelIdeal.Frame
import proofs.«421425_j4363686773057_3_alg».proof.Proof.Gen.ReferenceIdeal
import proofs.«421425_j4363686773057_3_alg».proof.Proof.Gen.Pre_finite_inputs
import proofs.«421425_j4363686773057_3_alg».proof.Proof.KRun
import proofs.«421425_j4363686773057_3_alg».proof.Proof.KHost
import proofs.«421425_j4363686773057_3_alg».proof.Proof.RefRun
import proofs.«421425_j4363686773057_3_alg».proof.Proof.RefRead
import proofs.«421425_j4363686773057_3_alg».proof.Proof.PreDecode
import proofs.«421425_j4363686773057_3_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_p : Cert.frame_Kernel := fun m ρ _ => Cert.Kernel.Gen.frame m ρ

/-- The idealized kernel runs and leaves its arguments unchanged. -/
theorem frame_pi : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the arguments, under the precondition, both idealized programs end at one array:
    the kernel's result term of its arguments (its run, its host operations and its two launches read as values),
    which is the reference's (its run read one operation at a time) by the bridge. -/
theorem algebraic : Cert.algebraic_KernelIdeal_ReferenceIdeal := by
  intro m ρ m' ρ' hpre hagree
  refine ⟨fun c => Cert.KernelIdeal.HostValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.HostValue.W7_v23 m ρ c), (h c).2⟩)
      (Cert.KernelIdeal.GenP.run_value m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v46_eq, (hagree c).1, (hagree c).2.1, (hagree c).2.2.1, (hagree c).2.2.2]
    obtain ⟨h0, h2, h3, hr⟩ := Cert.PreDecode.decode _ _ _ _ (hpre c)
    exact (Cert.Bridge.result_eq _ _ _ _ h0 h2 h3 hr).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
